-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg10 : FVec F S128x128 .f32) (main_arg11 : FVec F S128 .f32) (main_arg12 : FVec F S128x1 .f32) (main_arg13 : FVec F S1 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg12
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg13
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S100000x64 .f32) (main_arg1 : IVec S1600000 32) (main_arg2 : IVec S1600000 32) (main_arg3 : IVec S100000 32) (main_arg4 : FVec F S64x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg4
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_v13 main_v16
-- ==== Kernel.lean ====
abbrev S100000x64 : Shape := ⟨2, ![100000, 64]⟩
abbrev S1600000 : Shape := ⟨1, ![1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S4000x64 : Shape := ⟨2, ![4000, 64]⟩
abbrev S4000x1 : Shape := ⟨2, ![4000, 1]⟩
abbrev S4000x128 : Shape := ⟨2, ![4000, 128]⟩
abbrev S1600000x128 : Shape := ⟨2, ![1600000, 128]⟩
abbrev S512x128 : Shape := ⟨2, ![512, 128]⟩
abbrev S512 : Shape := ⟨1, ![512]⟩
abbrev S512x1 : Shape := ⟨2, ![512, 1]⟩
abbrev S1x1 : Shape := ⟨2, ![1, 1]⟩

abbrev nBuf : Space → Nat
  | .hbm => 93
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S100000x1, .f32⟩
  | .hbm, ⟨50, _⟩ => ⟨S1x128, .f32⟩
  | .hbm, ⟨51, _⟩ => ⟨S100000x128, .f32⟩
  | .hbm, ⟨52, _⟩ => ⟨S100000, .f32⟩
  | .hbm, ⟨53, _⟩ => ⟨S100000x1, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x1, .f32⟩
  | .hbm, ⟨70, _⟩ => ⟨S1x128, .f32⟩
  | .hbm, ⟨71, _⟩ => ⟨S100000x128, .f32⟩
  | .hbm, ⟨72, _⟩ => ⟨S_, .f32⟩
  | .hbm, ⟨73, _⟩ => ⟨S512x128, .f32⟩
  | .hbm, ⟨74, _⟩ => ⟨S100000x1, .i32⟩
  | .hbm, ⟨75, _⟩ => ⟨S512x128, .f32⟩
  | .hbm, ⟨76, _⟩ => ⟨S_, .f32⟩
  | .hbm, ⟨77, _⟩ => ⟨S100000, .f32⟩
  | .hbm, ⟨78, _⟩ => ⟨S_, .f32⟩
  | .hbm, ⟨79, _⟩ => ⟨S512, .f32⟩
  | .hbm, ⟨80, _⟩ => ⟨S100000x1, .i32⟩
  | .hbm, ⟨81, _⟩ => ⟨S512, .f32⟩
  | .hbm, ⟨82, _⟩ => ⟨S_, .f32⟩
  | .hbm, ⟨83, _⟩ => ⟨S_, .f32⟩
  | .hbm, ⟨84, _⟩ => ⟨S512, .f32⟩
  | .hbm, ⟨85, _⟩ => ⟨S512, .f32⟩
  | .hbm, ⟨86, _⟩ => ⟨S512x1, .f32⟩
  | .hbm, ⟨87, _⟩ => ⟨S512x128, .f32⟩
  | .hbm, ⟨88, _⟩ => ⟨S512x128, .f32⟩
  | .hbm, ⟨89, _⟩ => ⟨S1x128, .f32⟩
  | .hbm, ⟨90, _⟩ => ⟨S1x128, .f32⟩
  | .hbm, ⟨91, _⟩ => ⟨S1x1, .f32⟩
  | .hbm, ⟨92, _⟩ => ⟨S512x1, .f32⟩
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S64x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x1, .f32⟩
  | .local _ .vmem, ⟨11, _⟩ => ⟨S4000x1, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S512x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S128x1, .f32⟩
  | .local _ .vmem, ⟨22, _⟩ => ⟨S1x1, .f32⟩
  | .local _ .vmem, ⟨23, _⟩ => ⟨S512x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_4 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_5 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_c_6 : Ref sig .tc := ⟨.hbm, 56, rfl⟩
abbrev main_v30 : Ref sig .tc := ⟨.hbm, 57, rfl⟩
abbrev main_v31 : Ref sig .tc := ⟨.hbm, 58, rfl⟩
abbrev main_c_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S100000_S100000x1 : S100000.ShapeCasts S100000x1
  shapeCasts_S128_S1x128 : S128.ShapeCasts S1x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S4000x128_S4000x128 : S4000x128.ShapeCasts S4000x128
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x128_S4000x128_1_0_0_1_n_n_wf : DotDims.WF S4000x64 S64x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x1.size a ≤ S128x1.size a
  hwx2_5 : ∀ i : grid2.Coords, EltTy.bits .f32 = 32 ∨ (Rect.block (s := S128x1) S128x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x1.size a ≤ S512x1.size a
  hwx2_7 : ∀ i : grid2.Coords, EltTy.bits .f32 = 32 ∨ (Rect.block (s := S512x1) S512x1.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v22) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v39) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v53) S512x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v57) S512x1.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S512x128 : Shape := ⟨2, ![512, 128]⟩
abbrev S512 : Shape := ⟨1, ![512]⟩
abbrev S512x1 : Shape := ⟨2, ![512, 1]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S100000x64, .f32⟩
  | 1 => ⟨S1600000, .i32⟩
  | 2 => ⟨S1600000, .i32⟩
  | 3 => ⟨S100000, .i32⟩
  | 4 => ⟨S64x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x1, .f32⟩
  | 13 => ⟨S1, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S_, .f32⟩
  | 22 => ⟨S100000, .f32⟩
  | 23 => ⟨S100000, .f32⟩
  | 24 => ⟨S_, .f32⟩
  | 25 => ⟨S100000, .f32⟩
  | 26 => ⟨S1600000x1, .i32⟩
  | 27 => ⟨S100000, .f32⟩
  | 28 => ⟨S_, .f32⟩
  | 29 => ⟨S_, .f32⟩
  | 30 => ⟨S100000, .f32⟩
  | 31 => ⟨S100000, .f32⟩
  | 32 => ⟨S100000, .f32⟩
  | 33 => ⟨S100000x1, .f32⟩
  | 34 => ⟨S100000x64, .f32⟩
  | 35 => ⟨S100000x64, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x64, .f32⟩
  | 45 => ⟨S_, .f32⟩
  | 46 => ⟨S100000x64, .f32⟩
  | 47 => ⟨S1600000x1, .i32⟩
  | 48 => ⟨S100000x64, .f32⟩
  | 49 => ⟨S100000, .f32⟩
  | 50 => ⟨S100000x1, .f32⟩
  | 51 => ⟨S100000x64, .f32⟩
  | 52 => ⟨S100000x64, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S_, .f32⟩
  | 61 => ⟨S1600000, .f32⟩
  | 62 => ⟨S_, .f32⟩
  | 63 => ⟨S100000, .f32⟩
  | 64 => ⟨S1600000x1, .i32⟩
  | 65 => ⟨S100000, .f32⟩
  | 66 => ⟨S_, .f32⟩
  | 67 => ⟨S_, .f32⟩
  | 68 => ⟨S100000, .f32⟩
  | 69 => ⟨S100000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S_, .f32⟩
  | 76 => ⟨S100000, .f32⟩
  | 77 => ⟨S100000, .f32⟩
  | 78 => ⟨S100000, .f32⟩
  | 79 => ⟨S100000x1, .f32⟩
  | 80 => ⟨S100000x128, .f32⟩
  | 81 => ⟨S100000x128, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000x128, .f32⟩
  | 91 => ⟨S_, .f32⟩
  | 92 => ⟨S100000x128, .f32⟩
  | 93 => ⟨S1600000x1, .i32⟩
  | 94 => ⟨S100000x128, .f32⟩
  | 95 => ⟨S100000, .f32⟩
  | 96 => ⟨S100000x1, .f32⟩
  | 97 => ⟨S100000x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S_, .f32⟩
  | 107 => ⟨S512x128, .f32⟩
  | 108 => ⟨S100000x1, .i32⟩
  | 109 => ⟨S512x128, .f32⟩
  | 110 => ⟨S_, .f32⟩
  | 111 => ⟨S100000, .f32⟩
  | 112 => ⟨S_, .f32⟩
  | 113 => ⟨S512, .f32⟩
  | 114 => ⟨S100000x1, .i32⟩
  | 115 => ⟨S512, .f32⟩
  | 116 => ⟨S_, .f32⟩
  | 117 => ⟨S_, .f32⟩
  | 118 => ⟨S512, .f32⟩
  | 119 => ⟨S512, .f32⟩
  | 120 => ⟨S512x1, .f32⟩
  | 121 => ⟨S512x128, .f32⟩
  | 122 => ⟨S512x128, .f32⟩
  | 123 => ⟨S512x128, .f32⟩
  | 124 => ⟨S1x128, .f32⟩
  | 125 => ⟨S512x128, .f32⟩
  | 126 => ⟨S512x128, .f32⟩
  | 127 => ⟨S_, .f32⟩
  | _ => ⟨S100000x64, .f32⟩

abbrev hbmTy0_1 (i : Nat) : BufTy := match i % 128 with
  | 0 => ⟨S512x128, .f32⟩
  | 1 => ⟨S512x128, .f32⟩
  | 2 => ⟨S512x128, .f32⟩
  | 3 => ⟨S1x128, .f32⟩
  | 4 => ⟨S512x128, .f32⟩
  | 5 => ⟨S512x128, .f32⟩
  | 6 => ⟨S_, .f32⟩
  | 7 => ⟨S512x128, .f32⟩
  | 8 => ⟨S512x128, .f32⟩
  | 9 => ⟨S512x1, .f32⟩
  | 10 => ⟨S1x1, .f32⟩
  | 11 => ⟨S512x1, .f32⟩
  | 12 => ⟨S512x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_4 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_5 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_call2_cst : Ref sig .tc := ⟨.hbm, 57, rfl⟩
abbrev main_call2_v0 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_cst_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_8 : Ref sig .tc := ⟨.hbm, 66, rfl⟩
abbrev main_call3_v0 : Ref sig .tc := ⟨.hbm, 67, rfl⟩
abbrev main_call3_v1 : Ref sig .tc := ⟨.hbm, 68, rfl⟩
abbrev main_v36 : Ref sig .tc := ⟨.hbm, 69, rfl⟩
abbrev main_cst_9 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_10 : Ref sig .tc := ⟨.hbm, 74, rfl⟩
abbrev main_call4_v0 : Ref sig .tc := ⟨.hbm, 75, rfl⟩
abbrev main_call4_v1 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_c_11 : Ref sig .tc := ⟨.hbm, 82, rfl⟩
abbrev main_v45 : Ref sig .tc := ⟨.hbm, 83, rfl⟩
abbrev main_v46 : Ref sig .tc := ⟨.hbm, 84, rfl⟩
abbrev main_c_12 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_13 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_call5_cst : Ref sig .tc := ⟨.hbm, 103, rfl⟩
abbrev main_call5_v0 : Ref sig .tc := ⟨.hbm, 104, rfl⟩
abbrev main_v63 : Ref sig .tc := ⟨.hbm, 105, rfl⟩
abbrev main_cst_14 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_15 : Ref sig .tc := ⟨.hbm, 110, rfl⟩
abbrev main_v67 : Ref sig .tc := ⟨.hbm, 111, rfl⟩
abbrev main_cst_16 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_cst_17 : Ref sig .tc := ⟨.hbm, 116, rfl⟩
abbrev main_call6_v0 : Ref sig .tc := ⟨.hbm, 117, rfl⟩
abbrev main_call6_v1 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_call7_cst : Ref sig .tc := ⟨.hbm, 127, rfl⟩
abbrev main_call7_v0 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_call8_cst : Ref sig .tc := ⟨.hbm, 134, rfl⟩
abbrev main_call8_v0 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x128_S512x128_1_0_0_1_n_n_wf : DotDims.WF S512x128 S128x128 S512x128 [1] [0] [0] [1] [] []
  dot_S512x128_S128x1_S512x1_1_0_0_1_n_n_wf : DotDims.WF S512x128 S128x1 S512x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.Spec.lean ====
/-
  The mathematics both programs compute, as functions of matrices of extended reals, index by index.

  A graph-convolution layer maps an aggregated feature matrix `X` (one row per node), the column `D` of clipped
  in-degrees, a weight matrix `W` and a bias row `B` to `relu ((X scaled row-wise by D^(-1/2)) · W + B)`:
  entry (r, s) is `max (∑_q (X r q · rsqrt (D r 0)) · W q s + B 0 s) 0`.
  The classifier is three affine maps with a relu after the first two.
  Everything is stated over literal two-axis shapes, so that a block of rows of a layer is again a layer
  (of the block of rows of `X` and `D`): `layer_rows`.
-/
import Idealize.ShloMosaic.PureOps.Ideal
import Idealize.ShloMosaic.Lib.ValueIdx

noncomputable section

namespace Cert.Spec

open Idealize.ShloMosaic Idealize.ShloMosaic.ValueIdx

/-- A matrix of extended reals with `a` rows and `b` columns. -/
abbrev Mat (a b : ℕ) : Type := (⟨2, ![a, b]⟩ : Shape).Idx → EReal

/-- A vector of extended reals of length `a`. -/
abbrev Vct (a : ℕ) : Type := (⟨1, ![a]⟩ : Shape).Idx → EReal

/-- The affine map `X · W + B`, the bias a single row added to every row. -/
def dense {n k c : ℕ} (X : Mat n k) (W : Mat k c) (B : Mat 1 c) : Mat n c :=
  fun i => (∑ q : Fin k, X (ix2 (n0 := n) (n1 := k) (i 0) q) * W (ix2 (n0 := k) (n1 := c) q (i 1))) + B (ix2 (n0 := 1) (n1 := c) 0 (i 1))

/-- The positive part, entry by entry. -/
def relu {n c : ℕ} (X : Mat n c) : Mat n c := fun i => max (X i) 0

/-- Row `r` of `X` multiplied by the inverse square root of `D r 0`. -/
def scaleRows {n k : ℕ} (X : Mat n k) (D : Mat n 1) : Mat n k :=
  fun i => X i * Ideal.rsqrt (D (ix2 (n0 := n) (n1 := 1) (i 0) 0))

/-- One graph-convolution layer after the aggregation. -/
def layer {n k c : ℕ} (X : Mat n k) (D : Mat n 1) (W : Mat k c) (B : Mat 1 c) : Mat n c :=
  relu (dense (scaleRows X D) W B)

/-- The three-layer classifier. -/
def mlp {n h c : ℕ} (H : Mat n h) (W1 : Mat h h) (B1 : Mat 1 h) (W2 : Mat h h) (B2 : Mat 1 h) (W3 : Mat h c) (B3 : Mat 1 c) : Mat n c :=
  dense (relu (dense (relu (dense H W1 B1)) W2 B2)) W3 B3

/-- A vector as a one-column matrix. -/
def col {n : ℕ} (d : Vct n) : Mat n 1 := fun i => d (ix1 (n := n) (i 0))

/-- A vector as a one-row matrix. -/
def row {c : ℕ} (b : Vct c) : Mat 1 c := fun i => b (ix1 (n := c) (i 1))

theorem dense_apply {n k c : ℕ} (X : Mat n k) (W : Mat k c) (B : Mat 1 c) (r : Fin n) (s : Fin c) :
    dense X W B (ix2 r s) = (∑ q : Fin k, X (ix2 r q) * W (ix2 q s)) + B (ix2 0 s) := rfl

theorem relu_apply {n c : ℕ} (X : Mat n c) (i : (⟨2, ![n, c]⟩ : Shape).Idx) : relu X i = max (X i) 0 := rfl

theorem scaleRows_apply {n k : ℕ} (X : Mat n k) (D : Mat n 1) (r : Fin n) (q : Fin k) :
    scaleRows X D (ix2 r q) = X (ix2 r q) * Ideal.rsqrt (D (ix2 r 0)) := rfl

theorem layer_apply {n k c : ℕ} (X : Mat n k) (D : Mat n 1) (W : Mat k c) (B : Mat 1 c) (r : Fin n) (s : Fin c) :
    layer X D W B (ix2 r s) = max ((∑ q : Fin k, (X (ix2 r q) * Ideal.rsqrt (D (ix2 r 0))) * W (ix2 q s)) + B (ix2 0 s)) 0 := rfl

/-- ROWS OF A LAYER: if the rows of `X'` and `D'` are rows `f r` of `X` and `D`, the rows of the layer of `X'`, `D'`
    are rows `f r` of the layer of `X`, `D` (the weights and the bias are shared by all rows). -/
theorem layer_rows {n n' k c : ℕ} (X : Mat n k) (D : Mat n 1) (X' : Mat n' k) (D' : Mat n' 1) (W : Mat k c) (B : Mat 1 c)
    (f : Fin n' → Fin n) (hX : ∀ r q, X' (ix2 r q) = X (ix2 (f r) q)) (hD : ∀ r, D' (ix2 r 0) = D (ix2 (f r) 0))
    (r : Fin n') (s : Fin c) : layer X' D' W B (ix2 r s) = layer X D W B (ix2 (f r) s) := by
  rw [layer_apply, layer_apply, hD r]
  simp only [hX]

end Cert.Spec

end
-- ==== Proof.Payloads.lean ====
/- The arithmetic of the two dense kernel bodies on one block of rows, as a layer of the loaded blocks. -/
import proofs.«116400_j29703993819342_1_alg».proof.Proof.Gen.KernelIdeal.Frame
import proofs.«116400_j29703993819342_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Payloads

open Cert.KernelIdeal Cert.KernelIdeal.Gen
open Idealize.ShloMosaic Idealize.ShloMosaic.TcCoe Idealize.ShloMosaic.ValueIdx Idealize.SL.Sem
open Idealize.ShloMosaic.Pipeline (Dat)

/-! ## One column broadcast over many -/

/-- A `[a, 1]` array broadcast to `[a, b]` reads, at `(p, c)`, the operand's one column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The 64-term matrix product at an entry -/

theorem lhs0_0 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem lhs0_1 (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
theorem rhs0_0 (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
theorem rhs0_1 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- Entry (p, s) of the product accumulated into the zero splat is the sum over the 64 contracted positions. -/
theorem matmul0_apply (y : FVec Ideal S4000x64 .bf16) (w : FVec Ideal S64x128 .bf16) (p : Fin 4000) (s : Fin 128) :
    matmul dot_S4000x64_S64x128_S4000x128_1_0_0_1_n_n none y w (constant (F := Ideal) S4000x128 .f32 0x00000000#32) (ix2 p s)
      = ∑ k : Fin 64, y (ix2 p k) * w (ix2 k s) := by
  show FloatOps.matmul dot_S4000x64_S64x128_S4000x128_1_0_0_1_n_n none y w (constant (F := Ideal) S4000x128 .f32 0x00000000#32) (ix2 p s) = _
  rw [Ideal.matmul_constant_zero_apply, ← Equiv.sum_comp (ValueIdx.contrEquiv1 dot_S4000x64_S64x128_S4000x128_1_0_0_1_n_n 64 rfl rfl).symm]
  refine Finset.sum_congr rfl fun k _ => ?_
  have hk := ValueIdx.contrEquiv1_symm_val dot_S4000x64_S64x128_S4000x128_1_0_0_1_n_n 64 rfl rfl k
  have el : dot_S4000x64_S64x128_S4000x128_1_0_0_1_n_n.lhsIdx (ix2 p s) ((ValueIdx.contrEquiv1 dot_S4000x64_S64x128_S4000x128_1_0_0_1_n_n 64 rfl rfl).symm k) = ix2 p k := funext fun a => Fin.ext (by
    match a with
    | ⟨0, _⟩ => exact lhs0_0 _ _
    | ⟨1, _⟩ => exact (lhs0_1 _ _).trans hk)
  have er : dot_S4000x64_S64x128_S4000x128_1_0_0_1_n_n.rhsIdx (ix2 p s) ((ValueIdx.contrEquiv1 dot_S4000x64_S64x128_S4000x128_1_0_0_1_n_n 64 rfl rfl).symm k) = ix2 k s := funext fun a => Fin.ext (by
    match a with
    | ⟨0, _⟩ => exact (rhs0_0 _ _).trans hk
    | ⟨1, _⟩ => exact rhs0_1 _ _)
  rw [el, er]

/-! ## The 128-term matrix product at an entry -/

theorem lhs1_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs1_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs1_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs1_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry (p, s) of the product accumulated into the zero splat is the sum over the 128 contracted positions. -/
theorem matmul1_apply (y : FVec Ideal S4000x128 .bf16) (w : FVec Ideal S128x128 .bf16) (p : Fin 4000) (s : Fin 128) :
    matmul dot_S4000x128_S128x128_S4000x128_1_0_0_1_n_n none y w (constant (F := Ideal) S4000x128 .f32 0x00000000#32) (ix2 p s)
      = ∑ k : Fin 128, y (ix2 p k) * w (ix2 k s) := by
  show FloatOps.matmul dot_S4000x128_S128x128_S4000x128_1_0_0_1_n_n none y w (constant (F := Ideal) S4000x128 .f32 0x00000000#32) (ix2 p s) = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p s) ((ValueIdx.contrEquiv1 dot_S4000x128_S128x128_S4000x128_1_0_0_1_n_n 128 rfl rfl).symm k) = ix2 p k := funext fun a => Fin.ext (by
    match a with
    | ⟨0, _⟩ => exact lhs1_0 _ _
    | ⟨1, _⟩ => exact (lhs1_1 _ _).trans hk)
  have er : dot_S4000x128_S128x128_S4000x128_1_0_0_1_n_n.rhsIdx (ix2 p s) ((ValueIdx.contrEquiv1 dot_S4000x128_S128x128_S4000x128_1_0_0_1_n_n 128 rfl rfl).symm k) = ix2 k s := funext fun a => Fin.ext (by
    match a with
    | ⟨0, _⟩ => exact (rhs1_0 _ _).trans hk
    | ⟨1, _⟩ => exact rhs1_1 _ _)
  rw [el, er]

/-- The first dense kernel's stored value is a layer of its four loaded blocks. -/
theorem pay0_eq (x0 : Vec Ideal S4000x64 .f32) (x1 : Vec Ideal S4000x1 .f32) (x2 : Vec Ideal S64x128 .f32) (x3 : Vec Ideal S1x128 .f32) :
    k0_pay1 (F := Ideal) x0 x1 x2 x3 = Cert.Spec.layer (n := 4000) (k := 64) (c := 128) x0 x1 x2 x3 := by
  funext j
  obtain ⟨p, q, rfl⟩ : ∃ (p : Fin 4000) (q : Fin 128), j = ix2 p q := ⟨j 0, j 1, eq_ix2 j⟩
  rw [Cert.Spec.layer_apply]
  unfold k0_pay1
  rw [maximumf_apply, addf_apply, matmul0_apply, broadcast_apply, broadcastTo_1b_ab_apply]
  simp only [shapeCast_self, truncf_apply, mulf_apply, broadcastTo_a1_ab_apply]
  show max _ (Ideal.ofBits .f32 0x00000000#32) = _
  rw [Ideal.ofBits_zero_f32]
  rfl

/-- The second dense kernel's stored value is a layer of its four loaded blocks. -/
theorem pay1_eq (x0 : Vec Ideal S4000x128 .f32) (x1 : Vec Ideal S4000x1 .f32) (x2 : Vec Ideal S128x128 .f32) (x3 : Vec Ideal S1x128 .f32) :
    k1_pay1 (F := Ideal) x0 x1 x2 x3 = Cert.Spec.layer (n := 4000) (k := 128) (c := 128) x0 x1 x2 x3 := by
  funext j
  obtain ⟨p, q, rfl⟩ : ∃ (p : Fin 4000) (q : Fin 128), j = ix2 p q := ⟨j 0, j 1, eq_ix2 j⟩
  rw [Cert.Spec.layer_apply]
  unfold k1_pay1
  rw [maximumf_apply, addf_apply, matmul1_apply, broadcast_apply, broadcastTo_1b_ab_apply]
  simp only [shapeCast_self, truncf_apply, mulf_apply, broadcastTo_a1_ab_apply]
  show max _ (Ideal.ofBits .f32 0x00000000#32) = _
  rw [Ideal.ofBits_zero_f32]
  rfl

end Cert.KernelIdeal.Payloads

end
-- ==== Proof.Layer0.lean ====
/- What the first dense region leaves in its output array: a layer of the arrays the region is entered with. -/
import proofs.«116400_j29703993819342_1_alg».proof.Proof.Gen.KernelIdeal.Frame
import proofs.«116400_j29703993819342_1_alg».proof.Proof.Spec
import proofs.«116400_j29703993819342_1_alg».proof.Proof.Payloads
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block access. -/
theorem zero_off : (![0, 0] : Fin 2 → Nat) = fun _ => 0 := funext fun a => by fin_cases a <;> rfl

/-- The grid has 25 points. -/
theorem point_lt (t : Fin cfg0.N) : t.val < 25 := by
  have h : cfg0.N = 25 := N_0
  have ht : t.val < cfg0.N := t.isLt
  omega

/-- The block indices at point `t`: the row-blocked windows (features, degrees, result) are at block row `t`,
    the weights and the bias at their one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `r` of the feature block at point `t` is row `4000 t + r` of the feature array. -/
theorem features_block (c : Dev nD) (t : Fin cfg0.N) (r : Fin 4000) (q : Fin 64) (R : Fin 100000)
    (hR : R.val = 4000 * t.val + r.val) :
    (iblk0 V c 0 t : Vec Ideal S4000x64 .f32) (ix2 r q) = (V c main_v22 : S100000x64.Idx → EReal) (ix2 R q) := by
  obtain ⟨e0, e1, -⟩ := block_index t
  unfold iblk0
  rw [View.read_apply]
  show V c main_v22 _ = V c main_v22 _
  congr 1
  funext a
  apply Fin.ext
  match a with
  | ⟨0, _⟩ => show win0_0.index t (0 : Fin 2) * 4000 + 1 * r.val = R.val; rw [e0, hR]; omega
  | ⟨1, _⟩ => show win0_0.index t (1 : Fin 2) * 64 + 1 * q.val = q.val; rw [e1]; omega

/-- Row `r` of the degree block at point `t` is row `4000 t + r` of the degree column. -/
theorem degrees_block (c : Dev nD) (t : Fin cfg0.N) (r : Fin 4000) (R : Fin 100000)
    (hR : R.val = 4000 * t.val + r.val) :
    (iblk0 V c 1 t : Vec Ideal S4000x1 .f32) (ix2 r 0) = (V c main_v23 : S100000x1.Idx → EReal) (ix2 R 0) := by
  obtain ⟨-, -, e0, e1, -⟩ := block_index t
  unfold iblk0
  rw [View.read_apply]
  show V c main_v23 _ = V c main_v23 _
  congr 1
  funext a
  apply Fin.ext
  match a with
  | ⟨0, _⟩ => show win0_1.index t (0 : Fin 2) * 4000 + 1 * r.val = R.val; rw [e0, hR]; omega
  | ⟨1, _⟩ => show win0_1.index t (1 : Fin 2) * 1 + 1 * 0 = 0; rw [e1]

/-- The weight block at every point is the whole weight matrix. -/
theorem weights_block (c : Dev nD) (t : Fin cfg0.N) :
    (iblk0 V c 2 t : Vec Ideal S64x128 .f32) = (V c main_arg4 : S64x128.Idx → EReal) := by
  obtain ⟨-, -, -, -, e0, e1, -⟩ := block_index t
  funext j
  unfold iblk0
  rw [View.read_apply]
  show V c main_arg4 _ = V c main_arg4 _
  congr 1
  funext a
  apply Fin.ext
  match a with
  | ⟨0, _⟩ => show win0_2.index t (0 : Fin 2) * 64 + 1 * (j 0).val = (j 0).val; rw [e0]; omega
  | ⟨1, _⟩ => show win0_2.index t (1 : Fin 2) * 128 + 1 * (j 1).val = (j 1).val; rw [e1]; omega

/-- The bias block at every point is the whole bias row. -/
theorem bias_block (c : Dev nD) (t : Fin cfg0.N) :
    (iblk0 V c 3 t : Vec Ideal S1x128 .f32) = (V c main_v24 : S1x128.Idx → EReal) := by
  obtain ⟨-, -, -, -, -, -, e0, e1, -⟩ := block_index t
  funext j
  unfold iblk0
  rw [View.read_apply]
  show V c main_v24 _ = V c main_v24 _
  congr 1
  funext a
  apply Fin.ext
  match a with
  | ⟨0, _⟩ => show win0_3.index t (0 : Fin 2) * 1 + 1 * (j 0).val = (j 0).val; rw [e0]; omega
  | ⟨1, _⟩ => show win0_3.index t (1 : Fin 2) * 128 + 1 * (j 1).val = (j 1).val; rw [e1]; omega

/-- The layer of the whole arrays. -/
abbrev whole (c : Dev nD) : S100000x128.Idx → EReal :=
  Cert.Spec.layer (n := 100000) (k := 64) (c := 128) (V c main_v22) (V c main_v23) (V c main_arg4) (V c main_v24)

/-- The layer of the blocks at point `t`, at row `r`, is the layer of the whole arrays at row `4000 t + r`. -/
theorem layer_block (c : Dev nD) (t : Fin cfg0.N) (r : Fin 4000) (s : Fin 128) :
    Cert.Spec.layer (n := 4000) (k := 64) (c := 128) (iblk0 V c 0 t) (iblk0 V c 1 t) (iblk0 V c 2 t) (iblk0 V c 3 t) (ix2 r s)
      = whole V c (ix2 (⟨4000 * t.val + r.val, by have := point_lt t; have := r.isLt; omega⟩ : Fin 100000) s) := by
  rw [weights_block V c t, bias_block V c t]
  exact Cert.Spec.layer_rows (V c main_v22) (V c main_v23) (iblk0 V c 0 t) (iblk0 V c 1 t) (V c main_arg4) (V c main_v24)
    (fun r => ⟨4000 * t.val + r.val, by have := point_lt t; have := r.isLt; omega⟩)
    (fun r q => features_block V c t r q _ rfl) (fun r => degrees_block V c t r _ rfl) r s

/-- What point `t` writes back is block `t` of the layer of the whole arrays. -/
theorem flushed_eq (c : Dev nD) (t : Fin cfg0.N) :
    (dat0 (F := Ideal) V c).flushed 4 t = ((cfg0.win 4).blk t).view.read (Elt Ideal) (whole V c) := by
  show (cfg0.win 4).cut (grid0.coords t) ((dat0 V c).after 4 t) = _
  rw [after0_4]
  unfold out0_4
  rw [View.canon_unit_zero zero_off]
  simp only [View.ld_unit_zero (S := S4000x64) zero_off, View.ld_unit_zero (S := S4000x1) zero_off,
    View.ld_unit_zero (S := S64x128) zero_off, View.ld_unit_zero (S := S1x128) zero_off]
  rw [Payloads.pay0_eq]
  obtain ⟨-, -, -, -, -, -, -, -, e0, e1⟩ := block_index t
  funext j
  have h0 : (j 0).val < 4000 := ((cfg0.win 4).xinj (grid0.coords t) j 0).isLt
  have h1 : (j 1).val < 128 := ((cfg0.win 4).xinj (grid0.coords t) j 1).isLt
  have hR : 4000 * t.val + (j 0).val < 100000 := by have := point_lt t; omega
  -- the index inside the block, by coordinates
  have hJ : (cfg0.win 4).xinj (grid0.coords t) j = ix2 (n0 := 4000) (n1 := 128) ⟨(j 0).val, h0⟩ ⟨(j 1).val, h1⟩ := by
    funext a; apply Fin.ext
    match a with
    | ⟨0, _⟩ => rfl
    | ⟨1, _⟩ => rfl
  -- where the block's index sits in the array
  have hE : ((cfg0.win 4).blk t).view.emb j = ix2 (n0 := 100000) (n1 := 128) ⟨4000 * t.val + (j 0).val, hR⟩ ⟨(j 1).val, h1⟩ := by
    funext a; apply Fin.ext
    match a with
    | ⟨0, _⟩ => show win0_4.index t (0 : Fin 2) * 4000 + 1 * (j 0).val = 4000 * t.val + (j 0).val; rw [e0]; omega
    | ⟨1, _⟩ => show win0_4.index t (1 : Fin 2) * 128 + 1 * (j 1).val = (j 1).val; rw [e1]; omega
  rw [View.read_apply]
  refine (congrArg (Cert.Spec.layer (n := 4000) (k := 64) (c := 128) (iblk0 V c 0 t) (iblk0 V c 1 t) (iblk0 V c 2 t) (iblk0 V c 3 t)) hJ).trans ?_
  refine (layer_block V c t _ _).trans ?_
  exact (congrArg (whole V c) hE).symm

/-- An index of the result array is in point `t`'s block iff each coordinate is in the block's range on its axis. -/
theorem block_mem (t : Fin cfg0.N) (i : S100000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v25).slice (win0_4.rect t)).set ↔ _
  rw [View.set_slice_whole, Rect.mem_set_unit]
  exact Iff.rfl

/-- Row `r` of the result array is written back by point `r / 4000`: the 25 row blocks cover the array. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, -, -, e0, e1⟩ := block_index t
  refine ⟨t, flush0_4 t, ?_⟩
  rw [block_mem]
  intro a
  match a with
  | ⟨0, _⟩ => show win0_4.index t (0 : Fin 2) * 4000 ≤ (i 0).val ∧ (i 0).val < win0_4.index t (0 : Fin 2) * 4000 + 4000; rw [e0, ht]; omega
  | ⟨1, _⟩ => show win0_4.index t (1 : Fin 2) * 128 ≤ (i 1).val ∧ (i 1).val < win0_4.index t (1 : Fin 2) * 128 + 128; rw [e1]; omega

/-- The array region 0 leaves in its output window's array. -/
theorem array_eq (c : Dev nD) :
    (dat0 (F := Ideal) V c).arrAt 4 cfg0.N
      = Cert.Spec.layer (n := 100000) (k := 64) (c := 128) (V c main_v22) (V c main_v23) (V c main_arg4) (V c main_v24) :=
  (dat0 (F := Ideal) V c).arrAt_eq_of_cover 4 (whole V c) (fun t _ => flushed_eq V c t) covered

end Cert.KernelIdeal.Layer0

end
-- ==== Proof.Layer1.lean ====
/- What the second dense region leaves in its output array: a layer of the arrays the region is entered with. -/
import proofs.«116400_j29703993819342_1_alg».proof.Proof.Gen.KernelIdeal.Frame
import proofs.«116400_j29703993819342_1_alg».proof.Proof.Spec
import proofs.«116400_j29703993819342_1_alg».proof.Proof.Payloads
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block access. -/
theorem zero_off : (![0, 0] : Fin 2 → Nat) = fun _ => 0 := funext fun a => by fin_cases a <;> rfl

/-- The grid has 25 points. -/
theorem point_lt (t : Fin cfg1.N) : t.val < 25 := by
  have h : cfg1.N = 25 := N_1
  have ht : t.val < cfg1.N := t.isLt
  omega

/-- The block indices at point `t`: the row-blocked windows (hidden features, degrees, result) are at block row `t`,
    the weights and the bias at their one block. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `r` of the hidden-feature block at point `t` is row `4000 t + r` of the hidden-feature array. -/
theorem features_block (c : Dev nD) (t : Fin cfg1.N) (r : Fin 4000) (q : Fin 128) (R : Fin 100000)
    (hR : R.val = 4000 * t.val + r.val) :
    (iblk1 V c 0 t : Vec Ideal S4000x128 .f32) (ix2 r q) = (V c main_v39 : S100000x128.Idx → EReal) (ix2 R q) := by
  obtain ⟨e0, e1, -⟩ := block_index t
  unfold iblk1
  rw [View.read_apply]
  show V c main_v39 _ = V c main_v39 _
  congr 1
  funext a
  apply Fin.ext
  match a with
  | ⟨0, _⟩ => show win1_0.index t (0 : Fin 2) * 4000 + 1 * r.val = R.val; rw [e0, hR]; omega
  | ⟨1, _⟩ => show win1_0.index t (1 : Fin 2) * 128 + 1 * q.val = q.val; rw [e1]; omega

/-- Row `r` of the degree block at point `t` is row `4000 t + r` of the degree column. -/
theorem degrees_block (c : Dev nD) (t : Fin cfg1.N) (r : Fin 4000) (R : Fin 100000)
    (hR : R.val = 4000 * t.val + r.val) :
    (iblk1 V c 1 t : Vec Ideal S4000x1 .f32) (ix2 r 0) = (V c main_v40 : S100000x1.Idx → EReal) (ix2 R 0) := by
  obtain ⟨-, -, e0, e1, -⟩ := block_index t
  unfold iblk1
  rw [View.read_apply]
  show V c main_v40 _ = V c main_v40 _
  congr 1
  funext a
  apply Fin.ext
  match a with
  | ⟨0, _⟩ => show win1_1.index t (0 : Fin 2) * 4000 + 1 * r.val = R.val; rw [e0, hR]; omega
  | ⟨1, _⟩ => show win1_1.index t (1 : Fin 2) * 1 + 1 * 0 = 0; rw [e1]

/-- The weight block at every point is the whole weight matrix. -/
theorem weights_block (c : Dev nD) (t : Fin cfg1.N) :
    (iblk1 V c 2 t : Vec Ideal S128x128 .f32) = (V c main_arg6 : S128x128.Idx → EReal) := by
  obtain ⟨-, -, -, -, e0, e1, -⟩ := block_index t
  funext j
  unfold iblk1
  rw [View.read_apply]
  show V c main_arg6 _ = V c main_arg6 _
  congr 1
  funext a
  apply Fin.ext
  match a with
  | ⟨0, _⟩ => show win1_2.index t (0 : Fin 2) * 128 + 1 * (j 0).val = (j 0).val; rw [e0]; omega
  | ⟨1, _⟩ => show win1_2.index t (1 : Fin 2) * 128 + 1 * (j 1).val = (j 1).val; rw [e1]; omega

/-- The bias block at every point is the whole bias row. -/
theorem bias_block (c : Dev nD) (t : Fin cfg1.N) :
    (iblk1 V c 3 t : Vec Ideal S1x128 .f32) = (V c main_v41 : S1x128.Idx → EReal) := by
  obtain ⟨-, -, -, -, -, -, e0, e1, -⟩ := block_index t
  funext j
  unfold iblk1
  rw [View.read_apply]
  show V c main_v41 _ = V c main_v41 _
  congr 1
  funext a
  apply Fin.ext
  match a with
  | ⟨0, _⟩ => show win1_3.index t (0 : Fin 2) * 1 + 1 * (j 0).val = (j 0).val; rw [e0]; omega
  | ⟨1, _⟩ => show win1_3.index t (1 : Fin 2) * 128 + 1 * (j 1).val = (j 1).val; rw [e1]; omega

/-- The layer of the whole arrays. -/
abbrev whole (c : Dev nD) : S100000x128.Idx → EReal :=
  Cert.Spec.layer (n := 100000) (k := 128) (c := 128) (V c main_v39) (V c main_v40) (V c main_arg6) (V c main_v41)

/-- The layer of the blocks at point `t`, at row `r`, is the layer of the whole arrays at row `4000 t + r`. -/
theorem layer_block (c : Dev nD) (t : Fin cfg1.N) (r : Fin 4000) (s : Fin 128) :
    Cert.Spec.layer (n := 4000) (k := 128) (c := 128) (iblk1 V c 0 t) (iblk1 V c 1 t) (iblk1 V c 2 t) (iblk1 V c 3 t) (ix2 r s)
      = whole V c (ix2 (⟨4000 * t.val + r.val, by have := point_lt t; have := r.isLt; omega⟩ : Fin 100000) s) := by
  rw [weights_block V c t, bias_block V c t]
  exact Cert.Spec.layer_rows (V c main_v39) (V c main_v40) (iblk1 V c 0 t) (iblk1 V c 1 t) (V c main_arg6) (V c main_v41)
    (fun r => ⟨4000 * t.val + r.val, by have := point_lt t; have := r.isLt; omega⟩)
    (fun r q => features_block V c t r q _ rfl) (fun r => degrees_block V c t r _ rfl) r s

/-- What point `t` writes back is block `t` of the layer of the whole arrays. -/
theorem flushed_eq (c : Dev nD) (t : Fin cfg1.N) :
    (dat1 (F := Ideal) V c).flushed 4 t = ((cfg1.win 4).blk t).view.read (Elt Ideal) (whole V c) := by
  show (cfg1.win 4).cut (grid1.coords t) ((dat1 V c).after 4 t) = _
  rw [after1_4]
  unfold out1_4
  rw [View.canon_unit_zero zero_off]
  simp only [View.ld_unit_zero (S := S4000x128) zero_off, View.ld_unit_zero (S := S4000x1) zero_off,
    View.ld_unit_zero (S := S128x128) zero_off, View.ld_unit_zero (S := S1x128) zero_off]
  rw [Payloads.pay1_eq]
  obtain ⟨-, -, -, -, -, -, -, -, e0, e1⟩ := block_index t
  funext j
  have h0 : (j 0).val < 4000 := ((cfg1.win 4).xinj (grid1.coords t) j 0).isLt
  have h1 : (j 1).val < 128 := ((cfg1.win 4).xinj (grid1.coords t) j 1).isLt
  have hR : 4000 * t.val + (j 0).val < 100000 := by have := point_lt t; omega
  -- the index inside the block, by coordinates
  have hJ : (cfg1.win 4).xinj (grid1.coords t) j = ix2 (n0 := 4000) (n1 := 128) ⟨(j 0).val, h0⟩ ⟨(j 1).val, h1⟩ := by
    funext a; apply Fin.ext
    match a with
    | ⟨0, _⟩ => rfl
    | ⟨1, _⟩ => rfl
  -- where the block's index sits in the array
  have hE : ((cfg1.win 4).blk t).view.emb j = ix2 (n0 := 100000) (n1 := 128) ⟨4000 * t.val + (j 0).val, hR⟩ ⟨(j 1).val, h1⟩ := by
    funext a; apply Fin.ext
    match a with
    | ⟨0, _⟩ => show win1_4.index t (0 : Fin 2) * 4000 + 1 * (j 0).val = 4000 * t.val + (j 0).val; rw [e0]; omega
    | ⟨1, _⟩ => show win1_4.index t (1 : Fin 2) * 128 + 1 * (j 1).val = (j 1).val; rw [e1]; omega
  rw [View.read_apply]
  refine (congrArg (Cert.Spec.layer (n := 4000) (k := 128) (c := 128) (iblk1 V c 0 t) (iblk1 V c 1 t) (iblk1 V c 2 t) (iblk1 V c 3 t)) hJ).trans ?_
  refine (layer_block V c t _ _).trans ?_
  exact (congrArg (whole V c) hE).symm

/-- An index of the result array is in point `t`'s block iff each coordinate is in the block's range on its axis. -/
theorem block_mem (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v42).slice (win1_4.rect t)).set ↔ _
  rw [View.set_slice_whole, Rect.mem_set_unit]
  exact Iff.rfl

/-- Row `r` of the result array is written back by point `r / 4000`: the 25 row blocks cover the array. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, -, -, e0, e1⟩ := block_index t
  refine ⟨t, flush1_4 t, ?_⟩
  rw [block_mem]
  intro a
  match a with
  | ⟨0, _⟩ => show win1_4.index t (0 : Fin 2) * 4000 ≤ (i 0).val ∧ (i 0).val < win1_4.index t (0 : Fin 2) * 4000 + 4000; rw [e0, ht]; omega
  | ⟨1, _⟩ => show win1_4.index t (1 : Fin 2) * 128 ≤ (i 1).val ∧ (i 1).val < win1_4.index t (1 : Fin 2) * 128 + 128; rw [e1]; omega

/-- The array region 1 leaves in its output window's array. -/
theorem array_eq (c : Dev nD) :
    (dat1 (F := Ideal) V c).arrAt 4 cfg1.N
      = Cert.Spec.layer (n := 100000) (k := 128) (c := 128) (V c main_v39) (V c main_v40) (V c main_arg6) (V c main_v41) :=
  (dat1 (F := Ideal) V c).arrAt_eq_of_cover 4 (whole V c) (fun t _ => flushed_eq V c t) covered

end Cert.KernelIdeal.Layer1

end
-- ==== Proof.PayloadMlp.lean ====
/- The arithmetic of the classifier kernel's body, as the three-layer classifier of the loaded arrays. -/
import proofs.«116400_j29703993819342_1_alg».proof.Proof.Gen.KernelIdeal.Frame
import proofs.«116400_j29703993819342_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.PayloadMlp

open Cert.KernelIdeal Cert.KernelIdeal.Gen
open Idealize.ShloMosaic Idealize.ShloMosaic.TcCoe Idealize.ShloMosaic.ValueIdx Idealize.SL.Sem
open Idealize.ShloMosaic.Pipeline (Dat)

/-! ## The operand indices of the two contractions, axis by axis

Both contractions are over the left operand's axis 1 and the right operand's axis 0: the left operand is read at
(row of the output, contraction index), the right operand at (contraction index, column of the output). -/

theorem lhsA_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhsA_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhsA_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhsA_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

theorem lhsB_0 (i : S512x1.Idx) (q : dot_S512x128_S128x1_S512x1_1_0_0_1_n_n.contr.Idx) :
    (dot_S512x128_S128x1_S512x1_1_0_0_1_n_n.lhsIdx i q 0).val = (i 0).val := by
  unfold DotDims.lhsIdx
  rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
  rfl
theorem lhsB_1 (i : S512x1.Idx) (q : dot_S512x128_S128x1_S512x1_1_0_0_1_n_n.contr.Idx) :
    (dot_S512x128_S128x1_S512x1_1_0_0_1_n_n.lhsIdx i q 1).val = (q ⟨0, by decide⟩).val :=
  dot_S512x128_S128x1_S512x1_1_0_0_1_n_n.lhsIdx_val_of_single rfl i q
theorem rhsB_0 (i : S512x1.Idx) (q : dot_S512x128_S128x1_S512x1_1_0_0_1_n_n.contr.Idx) :
    (dot_S512x128_S128x1_S512x1_1_0_0_1_n_n.rhsIdx i q 0).val = (q ⟨0, by decide⟩).val :=
  dot_S512x128_S128x1_S512x1_1_0_0_1_n_n.rhsIdx_val_of_single rfl i q
theorem rhsB_1 (i : S512x1.Idx) (q : dot_S512x128_S128x1_S512x1_1_0_0_1_n_n.contr.Idx) :
    (dot_S512x128_S128x1_S512x1_1_0_0_1_n_n.rhsIdx i q 1).val = (i 1).val := by
  unfold DotDims.rhsIdx
  rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
  rfl

/-! ## One affine map of the body is the specification's affine map

At the extended reals the narrowing of the operands is the identity and the product into a zero accumulator is the
sum of products over the contraction index; the bias row is added to every row. -/

/-- A hidden layer's affine map: a 512 by 128 matrix times a 128 by 128 matrix, plus the bias row. -/
theorem denseA (L : FVec Ideal S512x128 .f32) (R : FVec Ideal S128x128 .f32) (b : FVec Ideal S1x128 .f32) :
    addf (matmul dot_S512x128_S128x128_S512x128_1_0_0_1_n_n none (truncf .bf16 L bitsLt_bf16_f32) (truncf .bf16 R bitsLt_bf16_f32) (constant (F := Ideal) S512x128 .f32 0x00000000#32))
        (broadcastTo S512x128 (shapeCast S1x128 b shapeCasts_S1x128_S1x128) broadcasts_S1x128_S512x128)
      = Cert.Spec.dense (n := 512) (k := 128) (c := 128) L R b := by
  funext j
  obtain ⟨p, q, rfl⟩ : ∃ (p : Fin 512) (q : Fin 128), j = ix2 p q := ⟨j 0, j 1, eq_ix2 j⟩
  rw [Cert.Spec.dense_apply, addf_apply, shapeCast_self, broadcastTo_1b_ab_apply]
  congr 1
  refine (Ideal.matmul_constant_zero_apply dot_S512x128_S128x128_S512x128_1_0_0_1_n_n none (truncf .bf16 L bitsLt_bf16_f32) (truncf .bf16 R bitsLt_bf16_f32) (ix2 p q)).trans ?_
  rw [← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx (ix2 p q) ((ValueIdx.contrEquiv1 dot_S512x128_S128x128_S512x128_1_0_0_1_n_n 128 rfl rfl).symm k) = ix2 p k := funext fun a => Fin.ext (by
    match a with
    | ⟨0, _⟩ => exact lhsA_0 _ _
    | ⟨1, _⟩ => exact (lhsA_1 _ _).trans hk)
  have er : dot_S512x128_S128x128_S512x128_1_0_0_1_n_n.rhsIdx (ix2 p q) ((ValueIdx.contrEquiv1 dot_S512x128_S128x128_S512x128_1_0_0_1_n_n 128 rfl rfl).symm k) = ix2 k q := funext fun a => Fin.ext (by
    match a with
    | ⟨0, _⟩ => exact (rhsA_0 _ _).trans hk
    | ⟨1, _⟩ => exact rhsA_1 _ _)
  rw [el, er]
  rfl

/-- The last affine map: a 512 by 128 matrix times a 128 by 1 matrix, plus the one-entry bias. -/
theorem denseB (L : FVec Ideal S512x128 .f32) (R : FVec Ideal S128x1 .f32) (b : FVec Ideal S1x1 .f32) :
    addf (matmul dot_S512x128_S128x1_S512x1_1_0_0_1_n_n none (truncf .bf16 L bitsLt_bf16_f32) (truncf .bf16 R bitsLt_bf16_f32) (constant (F := Ideal) S512x1 .f32 0x00000000#32))
        (broadcastTo S512x1 (shapeCast S1x1 b shapeCasts_S1x1_S1x1) broadcasts_S1x1_S512x1)
      = Cert.Spec.dense (n := 512) (k := 128) (c := 1) L R b := by
  funext j
  obtain ⟨p, q, rfl⟩ : ∃ (p : Fin 512) (q : Fin 1), j = ix2 p q := ⟨j 0, j 1, eq_ix2 j⟩
  rw [Cert.Spec.dense_apply, addf_apply, shapeCast_self, broadcastTo_1b_ab_apply]
  congr 1
  refine (Ideal.matmul_constant_zero_apply dot_S512x128_S128x1_S512x1_1_0_0_1_n_n none (truncf .bf16 L bitsLt_bf16_f32) (truncf .bf16 R bitsLt_bf16_f32) (ix2 p q)).trans ?_
  rw [← Equiv.sum_comp (ValueIdx.contrEquiv1 dot_S512x128_S128x1_S512x1_1_0_0_1_n_n 128 rfl rfl).symm]
  refine Finset.sum_congr rfl fun k _ => ?_
  have hk := ValueIdx.contrEquiv1_symm_val dot_S512x128_S128x1_S512x1_1_0_0_1_n_n 128 rfl rfl k
  have el : dot_S512x128_S128x1_S512x1_1_0_0_1_n_n.lhsIdx (ix2 p q) ((ValueIdx.contrEquiv1 dot_S512x128_S128x1_S512x1_1_0_0_1_n_n 128 rfl rfl).symm k) = ix2 p k := funext fun a => Fin.ext (by
    match a with
    | ⟨0, _⟩ => exact lhsB_0 _ _
    | ⟨1, _⟩ => exact (lhsB_1 _ _).trans hk)
  have er : dot_S512x128_S128x1_S512x1_1_0_0_1_n_n.rhsIdx (ix2 p q) ((ValueIdx.contrEquiv1 dot_S512x128_S128x1_S512x1_1_0_0_1_n_n 128 rfl rfl).symm k) = ix2 k q := funext fun a => Fin.ext (by
    match a with
    | ⟨0, _⟩ => exact (rhsB_0 _ _).trans hk
    | ⟨1, _⟩ => exact rhsB_1 _ _)
  rw [el, er]
  rfl

/-- The maximum with the zero word, entry by entry, is the positive part. -/
theorem relu_eq (X : FVec Ideal S512x128 .f32) :
    maximumf X (broadcast S512x128 (Scalar.ofBits (F := Ideal) .f32 0x00000000#32)) = Cert.Spec.relu (n := 512) (c := 128) X := by
  funext i
  rw [maximumf_apply, broadcast_apply, Cert.Spec.relu_apply]
  show max (X i) (Ideal.ofBits .f32 0x00000000#32) = _
  rw [Ideal.ofBits_zero_f32]

/-- The classifier kernel's stored value is the three-layer classifier of its seven loaded arrays. -/
theorem pay2_eq (x0 : Vec Ideal S512x128 .f32) (x1 : Vec Ideal S128x128 .f32) (x2 : Vec Ideal S1x128 .f32) (x3 : Vec Ideal S128x128 .f32) (x4 : Vec Ideal S1x128 .f32) (x5 : Vec Ideal S128x1 .f32) (x6 : Vec Ideal S1x1 .f32) :
    k2_pay1 (F := Ideal) x0 x1 x2 x3 x4 x5 x6 = Cert.Spec.mlp (n := 512) (h := 128) (c := 1) x0 x1 x2 x3 x4 x5 x6 := by
  unfold k2_pay1 Cert.Spec.mlp
  dsimp only
  rw [shapeCast_self, denseA, relu_eq, denseA, relu_eq, denseB]

end Cert.KernelIdeal.PayloadMlp

end
-- ==== Proof.Mlp.lean ====
/- What the classifier region leaves in its output array: the classifier of the arrays the region is entered with. -/
import proofs.«116400_j29703993819342_1_alg».proof.Proof.Gen.KernelIdeal.Frame
import proofs.«116400_j29703993819342_1_alg».proof.Proof.Spec
import proofs.«116400_j29703993819342_1_alg».proof.Proof.PayloadMlp
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Mlp

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The grid has one point, and at it every window's block index is zero on both axes. -/
theorem index_zero : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-! ## Each input block is the whole array

A block's coordinate is the block index times the block's extent plus the coordinate inside the block; the block
index is zero, so the block's coordinates are the array's. -/

/-- Window 0's one block is its whole array. -/
theorem block_0 (c : Dev nD) (t : Fin cfg2.N) : (iblk2 V c 0 t : Vec Ideal S512x128 .f32) = V c main_v53 := by
  have h0 : win2_0.index t (0 : Fin 2) = 0 := (index_zero t).1
  have h1 : win2_0.index t (1 : Fin 2) = 0 := (index_zero t).2.1
  funext y
  unfold iblk2
  rw [View.read_apply]
  show V c main_v53 _ = V c main_v53 y
  congr 1
  funext a
  apply Fin.ext
  match a with
  | ⟨0, _⟩ => show win2_0.index t (0 : Fin 2) * 512 + 1 * (y 0).val = (y 0).val; omega
  | ⟨1, _⟩ => show win2_0.index t (1 : Fin 2) * 128 + 1 * (y 1).val = (y 1).val; omega

/-- Window 1's one block is its whole array. -/
theorem block_1 (c : Dev nD) (t : Fin cfg2.N) : (iblk2 V c 1 t : Vec Ideal S128x128 .f32) = V c main_arg8 := by
  have h0 : win2_1.index t (0 : Fin 2) = 0 := (index_zero t).2.2.1
  have h1 : win2_1.index t (1 : Fin 2) = 0 := (index_zero t).2.2.2.1
  funext y
  unfold iblk2
  rw [View.read_apply]
  show V c main_arg8 _ = V c main_arg8 y
  congr 1
  funext a
  apply Fin.ext
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- Window 2's one block is its whole array. -/
theorem block_2 (c : Dev nD) (t : Fin cfg2.N) : (iblk2 V c 2 t : Vec Ideal S1x128 .f32) = V c main_v54 := by
  have h0 : win2_2.index t (0 : Fin 2) = 0 := (index_zero t).2.2.2.2.1
  have h1 : win2_2.index t (1 : Fin 2) = 0 := (index_zero t).2.2.2.2.2.1
  funext y
  unfold iblk2
  rw [View.read_apply]
  show V c main_v54 _ = V c main_v54 y
  congr 1
  funext a
  apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- Window 3's one block is its whole array. -/
theorem block_3 (c : Dev nD) (t : Fin cfg2.N) : (iblk2 V c 3 t : Vec Ideal S128x128 .f32) = V c main_arg10 := by
  have h0 : win2_3.index t (0 : Fin 2) = 0 := (index_zero t).2.2.2.2.2.2.1
  have h1 : win2_3.index t (1 : Fin 2) = 0 := (index_zero t).2.2.2.2.2.2.2.1
  funext y
  unfold iblk2
  rw [View.read_apply]
  show V c main_arg10 _ = V c main_arg10 y
  congr 1
  funext a
  apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Window 4's one block is its whole array. -/
theorem block_4 (c : Dev nD) (t : Fin cfg2.N) : (iblk2 V c 4 t : Vec Ideal S1x128 .f32) = V c main_v55 := by
  have h0 : win2_4.index t (0 : Fin 2) = 0 := (index_zero t).2.2.2.2.2.2.2.2.1
  have h1 : win2_4.index t (1 : Fin 2) = 0 := (index_zero t).2.2.2.2.2.2.2.2.2.1
  funext y
  unfold iblk2
  rw [View.read_apply]
  show V c main_v55 _ = V c main_v55 y
  congr 1
  funext a
  apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Window 5's one block is its whole array. -/
theorem block_5 (c : Dev nD) (t : Fin cfg2.N) : (iblk2 V c 5 t : Vec Ideal S128x1 .f32) = V c main_arg12 := by
  have h0 : win2_5.index t (0 : Fin 2) = 0 := (index_zero t).2.2.2.2.2.2.2.2.2.2.1
  have h1 : win2_5.index t (1 : Fin 2) = 0 := (index_zero t).2.2.2.2.2.2.2.2.2.2.2.1
  funext y
  unfold iblk2
  rw [View.read_apply]
  show V c main_arg12 _ = V c main_arg12 y
  congr 1
  funext a
  apply Fin.ext
  match a with
  | ⟨0, _⟩ => show win2_5.index t (0 : Fin 2) * 128 + 1 * (y 0).val = (y 0).val; omega
  | ⟨1, _⟩ => show win2_5.index t (1 : Fin 2) * 1 + 1 * (y 1).val = (y 1).val; omega

/-- Window 6's one block is its whole array. -/
theorem block_6 (c : Dev nD) (t : Fin cfg2.N) : (iblk2 V c 6 t : Vec Ideal S1x1 .f32) = V c main_v56 := by
  have h0 : win2_6.index t (0 : Fin 2) = 0 := (index_zero t).2.2.2.2.2.2.2.2.2.2.2.2.1
  have h1 : win2_6.index t (1 : Fin 2) = 0 := (index_zero t).2.2.2.2.2.2.2.2.2.2.2.2.2.1
  funext y
  unfold iblk2
  rw [View.read_apply]
  show V c main_v56 _ = V c main_v56 y
  congr 1
  funext a
  apply Fin.ext
  match a with
  | ⟨0, _⟩ => show win2_6.index t (0 : Fin 2) * 1 + 1 * (y 0).val = (y 0).val; omega
  | ⟨1, _⟩ => show win2_6.index t (1 : Fin 2) * 1 + 1 * (y 1).val = (y 1).val; omega

/-! ## The write-back and the array -/

/-- What the one point writes back is the classifier of the entry arrays, read through the point's block. -/
theorem flushed_eq (c : Dev nD) (t : Fin cfg2.N) :
    (dat2 (F := Ideal) V c).flushed 7 t
      = ((cfg2.win 7).blk t).view.read (Elt Ideal) (Cert.Spec.mlp (n := 512) (h := 128) (c := 1) (V c main_v53) (V c main_arg8) (V c main_v54) (V c main_arg10) (V c main_v55) (V c main_arg12) (V c main_v56)) := by
  have h0 : win2_7.index t (0 : Fin 2) = 0 := (index_zero t).2.2.2.2.2.2.2.2.2.2.2.2.2.2.1
  have h1 : win2_7.index t (1 : Fin 2) = 0 := (index_zero t).2.2.2.2.2.2.2.2.2.2.2.2.2.2.2
  show (cfg2.win 7).cut (grid2.coords t) ((dat2 (F := Ideal) V c).after 7 t) = _
  rw [after2_7]
  unfold out2_7
  rw [View.canon_unit_zero zero_offsets]
  simp only [View.ld_unit_zero (S := S512x128) zero_offsets, View.ld_unit_zero (S := S128x128) zero_offsets,
    View.ld_unit_zero (S := S1x128) zero_offsets, View.ld_unit_zero (S := S128x1) zero_offsets,
    View.ld_unit_zero (S := S1x1) zero_offsets]
  rw [PayloadMlp.pay2_eq, block_0 V c t, block_1 V c t, block_2 V c t, block_3 V c t, block_4 V c t, block_5 V c t, block_6 V c t]
  funext j
  show (Cert.Spec.mlp (n := 512) (h := 128) (c := 1) (V c main_v53) (V c main_arg8) (V c main_v54) (V c main_arg10) (V c main_v55) (V c main_arg12) (V c main_v56)) j = (Cert.Spec.mlp (n := 512) (h := 128) (c := 1) (V c main_v53) (V c main_arg8) (V c main_v54) (V c main_arg10) (V c main_v55) (V c main_arg12) (V c main_v56)) (((cfg2.win 7).blk t).view.emb j)
  congr 1
  funext a
  apply Fin.ext
  match a with
  | ⟨0, _⟩ => show (j 0).val = win2_7.index t (0 : Fin 2) * 512 + 1 * (j 0).val; omega
  | ⟨1, _⟩ => show (j 1).val = win2_7.index t (1 : Fin 2) * 1 + 1 * (j 1).val; omega

/-- The array region 2 leaves in its output window's array. -/
theorem array_eq (c : Dev nD) :
    (dat2 (F := Ideal) V c).arrAt 7 cfg2.N
      = Cert.Spec.mlp (n := 512) (h := 128) (c := 1) (V c main_v53) (V c main_arg8) (V c main_v54) (V c main_arg10) (V c main_v55) (V c main_arg12) (V c main_v56) :=
  (dat2 (F := Ideal) V c).arrAt_eq_of_cover 7 _ (fun t _ => flushed_eq V c t) fun i =>
    ⟨t2_0, flush2_7 t2_0, by
      show i ∈ ((View.whole main_v57).slice (win2_7.rect t2_0)).set
      rw [View.set_slice_whole, Rect.mem_set_unit]
      intro a
      have b0 : (i 0 : Nat) < 512 := (i 0).isLt
      have b1 : (i 1 : Nat) < 1 := (i 1).isLt
      match a with
      | ⟨0, _⟩ =>
        show win2_7.index t2_0 0 * win2_7.size 0 ≤ (i 0 : Nat) ∧ (i 0 : Nat) < win2_7.index t2_0 0 * win2_7.size 0 + win2_7.xsize (grid2.coords t2_0) 0
        rw [show win2_7.index t2_0 0 * win2_7.size 0 = 0 from by decide +kernel, show win2_7.xsize (grid2.coords t2_0) 0 = 512 from by decide +kernel]; omega
      | ⟨1, _⟩ =>
        show win2_7.index t2_0 1 * win2_7.size 1 ≤ (i 1 : Nat) ∧ (i 1 : Nat) < win2_7.index t2_0 1 * win2_7.size 1 + win2_7.xsize (grid2.coords t2_0) 1
        rw [show win2_7.index t2_0 1 * win2_7.size 1 = 0 from by decide +kernel, show win2_7.xsize (grid2.coords t2_0) 1 = 1 from by decide +kernel]; omega⟩

end Cert.KernelIdeal.Mlp

end
-- ==== Proof.RefLayers.lean ====
/- The reference's two graph-convolution layers, read index by index, are the specification's layer. -/
import proofs.«116400_j29703993819342_1_alg».proof.Proof.Gen.ReferenceIdeal.Read
import proofs.«116400_j29703993819342_1_alg».proof.Proof.Spec
import Idealize.ShloMosaic.Lib.ValueIdx
import Idealize.ShloMosaic.Lib.ValueLayout
import Idealize.ShloMosaic.PureOps.Ideal.Laws

set_option maxRecDepth 16384

noncomputable section

namespace Cert.ReferenceIdeal.Layers

open Cert.ReferenceIdeal Cert.ReferenceIdeal.Read
open Idealize.ShloMosaic Idealize.ShloMosaic.TcCoe Idealize.ShloMosaic.ValueIdx Idealize.SL.Sem

/-- The contents of a host buffer of shape `s` and element type `e`, at the extended reals. -/
abbrev Arr (s : Shape) (e : EltTy) : Type := (⟨s, e⟩ : BufTy).Contents (Elt Ideal)

/-- The first layer's output is a layer of the aggregated features, the in-degree column, the weights and the bias row. -/
theorem layer1_eq (x0 : Arr S100000x64 .f32) (x1 x2 : Arr S1600000 .i32) (x4 : Arr S64x128 .f32) (x5 : Arr S128 .f32) :
    val_main_v31 (F := Ideal) x0 x1 x2 x4 x5
      = Cert.Spec.layer (n := 100000) (k := 64) (c := 128) (val_main_v22 (F := Ideal) x0 x1 x2) (Cert.Spec.col (val_main_v8 (F := Ideal) x2)) x4 (Cert.Spec.row x5) := by
  funext i
  obtain ⟨p, q, rfl⟩ : ∃ (p : Fin 100000) (q : Fin 128), i = ix2 p q := ⟨i 0, i 1, eq_ix2 i⟩
  rw [Cert.Spec.layer_apply]
  rw [val_main_v31_apply, val_main_v30_apply, val_main_v27_apply, val_main_v29_apply, val_main_v28_apply,
    val_main_call2_v0_apply, val_main_call2_cst_apply]
  -- the bias is read at column q
  have eb : idx_main_v28 (idx_main_v29 (ix2 p q)) = ix1 q :=
    funext fun a => Fin.ext (by match a with | ⟨0, _⟩ => rfl)
  -- each summand: the scaled feature (p, k) times the weight (k, q)
  have hs : ∀ k : Fin 64,
      val_main_v26 (F := Ideal) x0 x1 x2 (lidx_main_v27 (ix2 p q) k) * x4 (ridx_main_v27 (ix2 p q) k)
        = (val_main_v22 (F := Ideal) x0 x1 x2 (ix2 p k)
            * Ideal.rsqrt (Cert.Spec.col (val_main_v8 (F := Ideal) x2) (ix2 p 0))) * x4 (ix2 k q) := by
    intro k
    have el : lidx_main_v27 (ix2 p q) k = ix2 p k :=
      funext fun a => Fin.ext (by match a with | ⟨0, _⟩ => rfl | ⟨1, _⟩ => rfl)
    have er : ridx_main_v27 (ix2 p q) k = ix2 k q :=
      funext fun a => Fin.ext (by match a with | ⟨0, _⟩ => rfl | ⟨1, _⟩ => rfl)
    have ed : idx_main_v24 (idx_main_v25 (ix2 p k)) = ix1 p :=
      funext fun a => Fin.ext (by match a with | ⟨0, _⟩ => rfl)
    rw [el, er, val_main_v26_apply, val_main_v25_apply, val_main_v24_apply, val_main_v23_apply, ed]
    simp only [Ideal.mulf_def, Ideal.hostUnary_rsqrt_def]
    rfl
  rw [Finset.sum_congr rfl fun k _ => hs k, eb]
  simp only [Ideal.maximumf_def, Ideal.addf_def, Ideal.ofBits_def, Ideal.ofBits_zero_f32]
  rfl

/-- The second layer's output likewise. -/
theorem layer2_eq (x0 : Arr S100000x64 .f32) (x1 x2 : Arr S1600000 .i32) (x4 : Arr S64x128 .f32) (x5 : Arr S128 .f32) (x6 : Arr S128x128 .f32) (x7 : Arr S128 .f32) :
    val_main_v63 (F := Ideal) x0 x1 x2 x4 x5 x6 x7
      = Cert.Spec.layer (n := 100000) (k := 128) (c := 128) (val_main_v54 (F := Ideal) x0 x1 x2 x4 x5) (Cert.Spec.col (val_main_v40 (F := Ideal) x2)) x6 (Cert.Spec.row x7) := by
  funext i
  obtain ⟨p, q, rfl⟩ : ∃ (p : Fin 100000) (q : Fin 128), i = ix2 p q := ⟨i 0, i 1, eq_ix2 i⟩
  rw [Cert.Spec.layer_apply]
  rw [val_main_v63_apply, val_main_v62_apply, val_main_v59_apply, val_main_v61_apply, val_main_v60_apply,
    val_main_call5_v0_apply, val_main_call5_cst_apply]
  -- the bias is read at column q
  have eb : idx_main_v60 (idx_main_v61 (ix2 p q)) = ix1 q :=
    funext fun a => Fin.ext (by match a with | ⟨0, _⟩ => rfl)
  -- each summand: the scaled feature (p, k) times the weight (k, q)
  have hs : ∀ k : Fin 128,
      val_main_v58 (F := Ideal) x0 x1 x2 x4 x5 (lidx_main_v59 (ix2 p q) k) * x6 (ridx_main_v59 (ix2 p q) k)
        = (val_main_v54 (F := Ideal) x0 x1 x2 x4 x5 (ix2 p k)
            * Ideal.rsqrt (Cert.Spec.col (val_main_v40 (F := Ideal) x2) (ix2 p 0))) * x6 (ix2 k q) := by
    intro k
    have el : lidx_main_v59 (ix2 p q) k = ix2 p k :=
      funext fun a => Fin.ext (by match a with | ⟨0, _⟩ => rfl | ⟨1, _⟩ => rfl)
    have er : ridx_main_v59 (ix2 p q) k = ix2 k q :=
      funext fun a => Fin.ext (by match a with | ⟨0, _⟩ => rfl | ⟨1, _⟩ => rfl)
    have ed : idx_main_v56 (idx_main_v57 (ix2 p k)) = ix1 p :=
      funext fun a => Fin.ext (by match a with | ⟨0, _⟩ => rfl)
    rw [el, er, val_main_v58_apply, val_main_v57_apply, val_main_v56_apply, val_main_v55_apply, ed]
    simp only [Ideal.mulf_def, Ideal.hostUnary_rsqrt_def]
    rfl
  rw [Finset.sum_congr rfl fun k _ => hs k, eb]
  simp only [Ideal.maximumf_def, Ideal.addf_def, Ideal.ofBits_def, Ideal.ofBits_zero_f32]
  rfl

end Cert.ReferenceIdeal.Layers

end
-- ==== Proof.RefMlp.lean ====
/- The reference's classifier, read index by index, is the specification's three-layer classifier. -/
import proofs.«116400_j29703993819342_1_alg».proof.Proof.Gen.ReferenceIdeal.Read
import proofs.«116400_j29703993819342_1_alg».proof.Proof.Spec
import Idealize.ShloMosaic.Lib.ValueIdx
import Idealize.ShloMosaic.Lib.ValueLayout
import Idealize.ShloMosaic.PureOps.Ideal.Laws

set_option maxRecDepth 16384

noncomputable section

namespace Cert.ReferenceIdeal.Classifier

open Cert.ReferenceIdeal Cert.ReferenceIdeal.Read
open Idealize.ShloMosaic Idealize.ShloMosaic.TcCoe Idealize.ShloMosaic.ValueIdx Idealize.SL.Sem

/-- The contents of a host buffer of shape `s` and element type `e`, at the extended reals. -/
abbrev Arr (s : Shape) (e : EltTy) : Type := (⟨s, e⟩ : BufTy).Contents (Elt Ideal)

/-! ## Where the generated index maps land, at an index given by its coordinates -/

/-- The left operand of a product of a 512-row matrix is read at row `p`, column `k`. -/
theorem lidx75_ix2 (p : Fin 512) (q k : Fin 128) : lidx_main_v75 (ix2 p q) k = ix2 p k :=
  funext fun a => Fin.ext (by match a with | ⟨0, _⟩ => rfl | ⟨1, _⟩ => rfl)
/-- The right operand is read at row `k`, column `q`. -/
theorem ridx75_ix2 (p : Fin 512) (q k : Fin 128) : ridx_main_v75 (ix2 p q) k = ix2 k q :=
  funext fun a => Fin.ext (by match a with | ⟨0, _⟩ => rfl | ⟨1, _⟩ => rfl)
/-- The bias, broadcast to every row, is read at entry `q`. -/
theorem bias77_ix2 (p : Fin 512) (q : Fin 128) : idx_main_v76 (idx_main_v77 (ix2 p q)) = ix1 q :=
  funext fun a => Fin.ext (by match a with | ⟨0, _⟩ => rfl)

theorem lidx80_ix2 (p : Fin 512) (q k : Fin 128) : lidx_main_v80 (ix2 p q) k = ix2 p k :=
  funext fun a => Fin.ext (by match a with | ⟨0, _⟩ => rfl | ⟨1, _⟩ => rfl)
theorem ridx80_ix2 (p : Fin 512) (q k : Fin 128) : ridx_main_v80 (ix2 p q) k = ix2 k q :=
  funext fun a => Fin.ext (by match a with | ⟨0, _⟩ => rfl | ⟨1, _⟩ => rfl)
theorem bias82_ix2 (p : Fin 512) (q : Fin 128) : idx_main_v81 (idx_main_v82 (ix2 p q)) = ix1 q :=
  funext fun a => Fin.ext (by match a with | ⟨0, _⟩ => rfl)

theorem lidx85_ix2 (p : Fin 512) (q : Fin 1) (k : Fin 128) : lidx_main_v85 (ix2 p q) k = ix2 p k :=
  funext fun a => Fin.ext (by match a with | ⟨0, _⟩ => rfl | ⟨1, _⟩ => rfl)
theorem ridx85_ix2 (p : Fin 512) (q : Fin 1) (k : Fin 128) : ridx_main_v85 (ix2 p q) k = ix2 k q :=
  funext fun a => Fin.ext (by match a with | ⟨0, _⟩ => rfl | ⟨1, _⟩ => rfl)
/-- The one-entry bias is read at its only entry, which is entry `q` since `q : Fin 1`. -/
theorem bias87_ix2 (p : Fin 512) (q : Fin 1) : idx_main_v86 (idx_main_v87 (ix2 p q)) = ix1 q :=
  funext fun a => Fin.ext (by match a with | ⟨0, _⟩ => (show (0 : ℕ) = q.val; omega))

/-! ## The three affine stages -/

/-- The first hidden layer: the positive part of the pooled features times `x8` plus the bias `x9`. -/
theorem hidden1_eq (x0 : Arr S100000x64 .f32) (x1 x2 : Arr S1600000 .i32) (x3 : Arr S100000 .i32) (x4 : Arr S64x128 .f32) (x5 : Arr S128 .f32) (x6 : Arr S128x128 .f32) (x7 : Arr S128 .f32)
    (x8 : Arr S128x128 .f32) (x9 : Arr S128 .f32) :
    val_main_v79 (F := Ideal) x0 x1 x2 x3 x4 x5 x6 x7 x8 x9
      = Cert.Spec.relu (Cert.Spec.dense (n := 512) (k := 128) (c := 128) (val_main_v74 (F := Ideal) x0 x1 x2 x3 x4 x5 x6 x7) x8 (Cert.Spec.row x9)) := by
  funext i
  obtain ⟨p, q, rfl⟩ : ∃ (p : Fin 512) (q : Fin 128), i = ix2 p q := ⟨i 0, i 1, eq_ix2 i⟩
  rw [Cert.Spec.relu_apply, Cert.Spec.dense_apply, val_main_v79_apply, val_main_v78_apply, val_main_v75_apply, val_main_v77_apply,
    val_main_v76_apply, val_main_call7_v0_apply, val_main_call7_cst_apply]
  simp only [lidx75_ix2, ridx75_ix2, bias77_ix2, Ideal.maximumf_def, Ideal.addf_def, Ideal.ofBits_def, Ideal.ofBits_zero_f32]
  rfl

/-- The second hidden layer, of the first. -/
theorem hidden2_eq (x0 : Arr S100000x64 .f32) (x1 x2 : Arr S1600000 .i32) (x3 : Arr S100000 .i32) (x4 : Arr S64x128 .f32) (x5 : Arr S128 .f32) (x6 : Arr S128x128 .f32) (x7 : Arr S128 .f32)
    (x8 : Arr S128x128 .f32) (x9 : Arr S128 .f32) (x10 : Arr S128x128 .f32) (x11 : Arr S128 .f32) :
    val_main_v84 (F := Ideal) x0 x1 x2 x3 x4 x5 x6 x7 x8 x9 x10 x11
      = Cert.Spec.relu (Cert.Spec.dense (n := 512) (k := 128) (c := 128) (val_main_v79 (F := Ideal) x0 x1 x2 x3 x4 x5 x6 x7 x8 x9) x10 (Cert.Spec.row x11)) := by
  funext i
  obtain ⟨p, q, rfl⟩ : ∃ (p : Fin 512) (q : Fin 128), i = ix2 p q := ⟨i 0, i 1, eq_ix2 i⟩
  rw [Cert.Spec.relu_apply, Cert.Spec.dense_apply, val_main_v84_apply, val_main_v83_apply, val_main_v80_apply, val_main_v82_apply,
    val_main_v81_apply, val_main_call8_v0_apply, val_main_call8_cst_apply]
  simp only [lidx80_ix2, ridx80_ix2, bias82_ix2, Ideal.maximumf_def, Ideal.addf_def, Ideal.ofBits_def, Ideal.ofBits_zero_f32]
  rfl

/-- The output column: the second hidden layer times `x12` plus the one-entry bias `x13`, no positive part. -/
theorem output_eq (x0 : Arr S100000x64 .f32) (x1 x2 : Arr S1600000 .i32) (x3 : Arr S100000 .i32) (x4 : Arr S64x128 .f32) (x5 : Arr S128 .f32) (x6 : Arr S128x128 .f32) (x7 : Arr S128 .f32)
    (x8 : Arr S128x128 .f32) (x9 : Arr S128 .f32) (x10 : Arr S128x128 .f32) (x11 : Arr S128 .f32) (x12 : Arr S128x1 .f32) (x13 : Arr S1 .f32) :
    val_main_v88 (F := Ideal) x0 x1 x2 x3 x4 x5 x6 x7 x8 x9 x10 x11 x12 x13
      = Cert.Spec.dense (n := 512) (k := 128) (c := 1) (val_main_v84 (F := Ideal) x0 x1 x2 x3 x4 x5 x6 x7 x8 x9 x10 x11) x12 (Cert.Spec.row x13) := by
  funext i
  obtain ⟨p, q, rfl⟩ : ∃ (p : Fin 512) (q : Fin 1), i = ix2 p q := ⟨i 0, i 1, eq_ix2 i⟩
  rw [Cert.Spec.dense_apply, val_main_v88_apply, val_main_v85_apply, val_main_v87_apply, val_main_v86_apply]
  simp only [lidx85_ix2, ridx85_ix2, bias87_ix2, Ideal.addf_def]
  rfl

/-- The result is the classifier of the pooled features. -/
theorem mlp_eq (x0 : Arr S100000x64 .f32) (x1 x2 : Arr S1600000 .i32) (x3 : Arr S100000 .i32) (x4 : Arr S64x128 .f32) (x5 : Arr S128 .f32) (x6 : Arr S128x128 .f32) (x7 : Arr S128 .f32)
    (x8 : Arr S128x128 .f32) (x9 : Arr S128 .f32) (x10 : Arr S128x128 .f32) (x11 : Arr S128 .f32) (x12 : Arr S128x1 .f32) (x13 : Arr S1 .f32) :
    val_main_v88 (F := Ideal) x0 x1 x2 x3 x4 x5 x6 x7 x8 x9 x10 x11 x12 x13
      = Cert.Spec.mlp (n := 512) (h := 128) (c := 1) (val_main_v74 (F := Ideal) x0 x1 x2 x3 x4 x5 x6 x7) x8 (Cert.Spec.row x9) x10 (Cert.Spec.row x11) x12 (Cert.Spec.row x13) := by
  unfold Cert.Spec.mlp
  rw [output_eq, hidden2_eq, hidden1_eq]

end Cert.ReferenceIdeal.Classifier

end
-- ==== Proof.Bridge.lean ====
/-
  The kernel program's result as a function of the argument arrays.

  Between its three pallas regions the kernel program runs host operations that the reference runs too: the two degree
  counts (scatter-adds of ones) clipped below at one, the source-side scaling, the gather along the edges, the scatter-add
  into the destination rows, and after the second layer the mean pooling over graphs. Reading the buffers at each
  region's entry through these operations, and each region's output array as a layer (or the classifier) of its entry
  arrays, the result buffer is, stage by stage, the reference's own stage function of the same arguments: the first
  layer's output is the reference's first relu, the second layer's its second, and the classifier's output its result.
  The reference computes the clipped degrees once per layer, the kernel program once in all: the two spellings are one
  term of the edge lists.
-/
import proofs.«116400_j29703993819342_1_alg».proof.Proof.KernelRun
import proofs.«116400_j29703993819342_1_alg».proof.Proof.Layer0
import proofs.«116400_j29703993819342_1_alg».proof.Proof.Layer1
import proofs.«116400_j29703993819342_1_alg».proof.Proof.Mlp
import proofs.«116400_j29703993819342_1_alg».proof.Proof.RefLayers
import proofs.«116400_j29703993819342_1_alg».proof.Proof.RefMlp
import Idealize.ShloMosaic.Lib.StableHlo.Run
import Idealize.ShloMosaic.Lib.ValueLayout

set_option maxRecDepth 16384

noncomputable section

namespace Cert.Bridge

open Cert.KernelIdeal Cert.KernelIdeal.Gen
open Idealize.ShloMosaic Idealize.ShloMosaic.TcCoe Idealize.ShloMosaic.ValueIdx Idealize.SL.Sem Idealize.ShloMosaic.StableHlo
open Cert.ReferenceIdeal.Read (val_main_v4 val_main_v8 val_main_v22 val_main_v31 val_main_v36 val_main_v40 val_main_v54 val_main_v63 val_main_v74 val_main_v88)

variable (m : (ℓ : Loc nD τ sig) → Buf (Elt Ideal) ℓ) (ρ : Dev nD → PrngReg)

/-! ## Reshapes of a vector to a column and to a row -/

/-- A vector of length `a` cast to `[a, 1]` is the vector as a column. -/
theorem shapeCast_col {a : ℕ} (x : Cert.Spec.Vct a) (h : (⟨1, ![a]⟩ : Shape).ShapeCasts ⟨2, ![a, 1]⟩) :
    shapeCast ⟨2, ![a, 1]⟩ x h = Cert.Spec.col x := by
  funext j
  obtain ⟨p, u, rfl⟩ : ∃ (p : Fin a) (u : Fin 1), j = ix2 p u := ⟨j 0, j 1, eq_ix2 j⟩
  refine shapeCast_apply x h _ _ ?_
  have hu : u.val = 0 := by omega
  rw [Shape.rowMajor_val_two, Shape.rowMajor_val_one]
  show p.val = p.val * 1 + u.val
  rw [hu, Nat.mul_one, Nat.add_zero]

/-- A vector of length `a` cast to `[1, a]` is the vector as a row. -/
theorem shapeCast_row {a : ℕ} (x : Cert.Spec.Vct a) (h : (⟨1, ![a]⟩ : Shape).ShapeCasts ⟨2, ![1, a]⟩) :
    shapeCast ⟨2, ![1, a]⟩ x h = Cert.Spec.row x := by
  funext j
  obtain ⟨u, i, rfl⟩ : ∃ (u : Fin 1) (i : Fin a), j = ix2 u i := ⟨j 0, j 1, eq_ix2 j⟩
  exact shapeCast_a_1a_apply x h u i

/-! ## Reading the launch memory -/

/-- The launch memory, read at a TensorCore reference. -/
theorem W0_read (c : Dev nD) (b : Ref sig .tc) : W0 m ρ c (Proc.devRef .tc b) = m ((c : Thread nD τ).loc b) := rfl

/-- Walks a read of a buffer no operation writes back through the boundaries to the launch memory. -/
macro "walk_back" : tactic =>
  `(tactic| repeat (first
      | exact W0_read _ _ _ _
      | rw [W12_of_ne _ _ _ _ (by decide)]
      | rw [W8_of_ne _ _ _ _ (by decide)]
      | rw [W6_of_ne _ _ _ _ (by decide)]
      | (show StableHlo.after _ _ _ = _; after_results_simp)))

/-! ## A called function's buffers hold their values as they are

The operations of an inlined function are spelt over typed references, whose contents pass through a transport along
the buffer's type equation; for a literal buffer that transport is the identity. -/

theorem toBuf_main_cst_1 (p1 : main_cst_1.ty = ⟨S_, .f32⟩) (p2 : main_cst_1.space ≠ .host) (p3 : main_cst_1.isScoped = false) (v : (⟨S_, .f32⟩ : BufTy).Contents (Elt Ideal)) :
    (TRef.of (sig := sig) (T := ⟨S_, .f32⟩) main_cst_1 p1 p2 p3).toBuf v = v := rfl
theorem ofBuf_main_cst_1 (p1 : main_cst_1.ty = ⟨S_, .f32⟩) (p2 : main_cst_1.space ≠ .host) (p3 : main_cst_1.isScoped = false) (v : (⟨S_, .f32⟩ : BufTy).Contents (Elt Ideal)) :
    (TRef.of (sig := sig) (T := ⟨S_, .f32⟩) main_cst_1 p1 p2 p3).ofBuf v = v := rfl
theorem toBuf_main_call0_v0 (p1 : main_call0_v0.ty = ⟨S_, .f32⟩) (p2 : main_call0_v0.space ≠ .host) (p3 : main_call0_v0.isScoped = false) (v : (⟨S_, .f32⟩ : BufTy).Contents (Elt Ideal)) :
    (TRef.of (sig := sig) (T := ⟨S_, .f32⟩) main_call0_v0 p1 p2 p3).toBuf v = v := rfl
theorem ofBuf_main_call0_v0 (p1 : main_call0_v0.ty = ⟨S_, .f32⟩) (p2 : main_call0_v0.space ≠ .host) (p3 : main_call0_v0.isScoped = false) (v : (⟨S_, .f32⟩ : BufTy).Contents (Elt Ideal)) :
    (TRef.of (sig := sig) (T := ⟨S_, .f32⟩) main_call0_v0 p1 p2 p3).ofBuf v = v := rfl
theorem toBuf_main_call0_v1 (p1 : main_call0_v1.ty = ⟨S100000, .f32⟩) (p2 : main_call0_v1.space ≠ .host) (p3 : main_call0_v1.isScoped = false) (v : (⟨S100000, .f32⟩ : BufTy).Contents (Elt Ideal)) :
    (TRef.of (sig := sig) (T := ⟨S100000, .f32⟩) main_call0_v1 p1 p2 p3).toBuf v = v := rfl
theorem ofBuf_main_call0_v1 (p1 : main_call0_v1.ty = ⟨S100000, .f32⟩) (p2 : main_call0_v1.space ≠ .host) (p3 : main_call0_v1.isScoped = false) (v : (⟨S100000, .f32⟩ : BufTy).Contents (Elt Ideal)) :
    (TRef.of (sig := sig) (T := ⟨S100000, .f32⟩) main_call0_v1 p1 p2 p3).ofBuf v = v := rfl
theorem toBuf_main_v3 (p1 : main_v3.ty = ⟨S100000, .f32⟩) (p2 : main_v3.space ≠ .host) (p3 : main_v3.isScoped = false) (v : (⟨S100000, .f32⟩ : BufTy).Contents (Elt Ideal)) :
    (TRef.of (sig := sig) (T := ⟨S100000, .f32⟩) main_v3 p1 p2 p3).toBuf v = v := rfl
theorem ofBuf_main_v3 (p1 : main_v3.ty = ⟨S100000, .f32⟩) (p2 : main_v3.space ≠ .host) (p3 : main_v3.isScoped = false) (v : (⟨S100000, .f32⟩ : BufTy).Contents (Elt Ideal)) :
    (TRef.of (sig := sig) (T := ⟨S100000, .f32⟩) main_v3 p1 p2 p3).ofBuf v = v := rfl
theorem toBuf_main_v4 (p1 : main_v4.ty = ⟨S100000, .f32⟩) (p2 : main_v4.space ≠ .host) (p3 : main_v4.isScoped = false) (v : (⟨S100000, .f32⟩ : BufTy).Contents (Elt Ideal)) :
    (TRef.of (sig := sig) (T := ⟨S100000, .f32⟩) main_v4 p1 p2 p3).toBuf v = v := rfl
theorem ofBuf_main_v4 (p1 : main_v4.ty = ⟨S100000, .f32⟩) (p2 : main_v4.space ≠ .host) (p3 : main_v4.isScoped = false) (v : (⟨S100000, .f32⟩ : BufTy).Contents (Elt Ideal)) :
    (TRef.of (sig := sig) (T := ⟨S100000, .f32⟩) main_v4 p1 p2 p3).ofBuf v = v := rfl
theorem toBuf_main_cst_3 (p1 : main_cst_3.ty = ⟨S_, .f32⟩) (p2 : main_cst_3.space ≠ .host) (p3 : main_cst_3.isScoped = false) (v : (⟨S_, .f32⟩ : BufTy).Contents (Elt Ideal)) :
    (TRef.of (sig := sig) (T := ⟨S_, .f32⟩) main_cst_3 p1 p2 p3).toBuf v = v := rfl
theorem ofBuf_main_cst_3 (p1 : main_cst_3.ty = ⟨S_, .f32⟩) (p2 : main_cst_3.space ≠ .host) (p3 : main_cst_3.isScoped = false) (v : (⟨S_, .f32⟩ : BufTy).Contents (Elt Ideal)) :
    (TRef.of (sig := sig) (T := ⟨S_, .f32⟩) main_cst_3 p1 p2 p3).ofBuf v = v := rfl
theorem toBuf_main_call1_v0 (p1 : main_call1_v0.ty = ⟨S_, .f32⟩) (p2 : main_call1_v0.space ≠ .host) (p3 : main_call1_v0.isScoped = false) (v : (⟨S_, .f32⟩ : BufTy).Contents (Elt Ideal)) :
    (TRef.of (sig := sig) (T := ⟨S_, .f32⟩) main_call1_v0 p1 p2 p3).toBuf v = v := rfl
theorem ofBuf_main_call1_v0 (p1 : main_call1_v0.ty = ⟨S_, .f32⟩) (p2 : main_call1_v0.space ≠ .host) (p3 : main_call1_v0.isScoped = false) (v : (⟨S_, .f32⟩ : BufTy).Contents (Elt Ideal)) :
    (TRef.of (sig := sig) (T := ⟨S_, .f32⟩) main_call1_v0 p1 p2 p3).ofBuf v = v := rfl
theorem toBuf_main_call1_v1 (p1 : main_call1_v1.ty = ⟨S100000, .f32⟩) (p2 : main_call1_v1.space ≠ .host) (p3 : main_call1_v1.isScoped = false) (v : (⟨S100000, .f32⟩ : BufTy).Contents (Elt Ideal)) :
    (TRef.of (sig := sig) (T := ⟨S100000, .f32⟩) main_call1_v1 p1 p2 p3).toBuf v = v := rfl
theorem ofBuf_main_call1_v1 (p1 : main_call1_v1.ty = ⟨S100000, .f32⟩) (p2 : main_call1_v1.space ≠ .host) (p3 : main_call1_v1.isScoped = false) (v : (⟨S100000, .f32⟩ : BufTy).Contents (Elt Ideal)) :
    (TRef.of (sig := sig) (T := ⟨S100000, .f32⟩) main_call1_v1 p1 p2 p3).ofBuf v = v := rfl
theorem toBuf_main_v7 (p1 : main_v7.ty = ⟨S100000, .f32⟩) (p2 : main_v7.space ≠ .host) (p3 : main_v7.isScoped = false) (v : (⟨S100000, .f32⟩ : BufTy).Contents (Elt Ideal)) :
    (TRef.of (sig := sig) (T := ⟨S100000, .f32⟩) main_v7 p1 p2 p3).toBuf v = v := rfl
theorem ofBuf_main_v7 (p1 : main_v7.ty = ⟨S100000, .f32⟩) (p2 : main_v7.space ≠ .host) (p3 : main_v7.isScoped = false) (v : (⟨S100000, .f32⟩ : BufTy).Contents (Elt Ideal)) :
    (TRef.of (sig := sig) (T := ⟨S100000, .f32⟩) main_v7 p1 p2 p3).ofBuf v = v := rfl
theorem toBuf_main_v8 (p1 : main_v8.ty = ⟨S100000, .f32⟩) (p2 : main_v8.space ≠ .host) (p3 : main_v8.isScoped = false) (v : (⟨S100000, .f32⟩ : BufTy).Contents (Elt Ideal)) :
    (TRef.of (sig := sig) (T := ⟨S100000, .f32⟩) main_v8 p1 p2 p3).toBuf v = v := rfl
theorem ofBuf_main_v8 (p1 : main_v8.ty = ⟨S100000, .f32⟩) (p2 : main_v8.space ≠ .host) (p3 : main_v8.isScoped = false) (v : (⟨S100000, .f32⟩ : BufTy).Contents (Elt Ideal)) :
    (TRef.of (sig := sig) (T := ⟨S100000, .f32⟩) main_v8 p1 p2 p3).ofBuf v = v := rfl
theorem toBuf_main_cst_12 (p1 : main_cst_12.ty = ⟨S_, .f32⟩) (p2 : main_cst_12.space ≠ .host) (p3 : main_cst_12.isScoped = false) (v : (⟨S_, .f32⟩ : BufTy).Contents (Elt Ideal)) :
    (TRef.of (sig := sig) (T := ⟨S_, .f32⟩) main_cst_12 p1 p2 p3).toBuf v = v := rfl
theorem ofBuf_main_cst_12 (p1 : main_cst_12.ty = ⟨S_, .f32⟩) (p2 : main_cst_12.space ≠ .host) (p3 : main_cst_12.isScoped = false) (v : (⟨S_, .f32⟩ : BufTy).Contents (Elt Ideal)) :
    (TRef.of (sig := sig) (T := ⟨S_, .f32⟩) main_cst_12 p1 p2 p3).ofBuf v = v := rfl
theorem toBuf_main_call2_v0 (p1 : main_call2_v0.ty = ⟨S_, .f32⟩) (p2 : main_call2_v0.space ≠ .host) (p3 : main_call2_v0.isScoped = false) (v : (⟨S_, .f32⟩ : BufTy).Contents (Elt Ideal)) :
    (TRef.of (sig := sig) (T := ⟨S_, .f32⟩) main_call2_v0 p1 p2 p3).toBuf v = v := rfl
theorem ofBuf_main_call2_v0 (p1 : main_call2_v0.ty = ⟨S_, .f32⟩) (p2 : main_call2_v0.space ≠ .host) (p3 : main_call2_v0.isScoped = false) (v : (⟨S_, .f32⟩ : BufTy).Contents (Elt Ideal)) :
    (TRef.of (sig := sig) (T := ⟨S_, .f32⟩) main_call2_v0 p1 p2 p3).ofBuf v = v := rfl
theorem toBuf_main_call2_v1 (p1 : main_call2_v1.ty = ⟨S512, .f32⟩) (p2 : main_call2_v1.space ≠ .host) (p3 : main_call2_v1.isScoped = false) (v : (⟨S512, .f32⟩ : BufTy).Contents (Elt Ideal)) :
    (TRef.of (sig := sig) (T := ⟨S512, .f32⟩) main_call2_v1 p1 p2 p3).toBuf v = v := rfl
theorem ofBuf_main_call2_v1 (p1 : main_call2_v1.ty = ⟨S512, .f32⟩) (p2 : main_call2_v1.space ≠ .host) (p3 : main_call2_v1.isScoped = false) (v : (⟨S512, .f32⟩ : BufTy).Contents (Elt Ideal)) :
    (TRef.of (sig := sig) (T := ⟨S512, .f32⟩) main_call2_v1 p1 p2 p3).ofBuf v = v := rfl
theorem toBuf_main_v49 (p1 : main_v49.ty = ⟨S512, .f32⟩) (p2 : main_v49.space ≠ .host) (p3 : main_v49.isScoped = false) (v : (⟨S512, .f32⟩ : BufTy).Contents (Elt Ideal)) :
    (TRef.of (sig := sig) (T := ⟨S512, .f32⟩) main_v49 p1 p2 p3).toBuf v = v := rfl
theorem ofBuf_main_v49 (p1 : main_v49.ty = ⟨S512, .f32⟩) (p2 : main_v49.space ≠ .host) (p3 : main_v49.isScoped = false) (v : (⟨S512, .f32⟩ : BufTy).Contents (Elt Ideal)) :
    (TRef.of (sig := sig) (T := ⟨S512, .f32⟩) main_v49 p1 p2 p3).ofBuf v = v := rfl
theorem toBuf_main_v50 (p1 : main_v50.ty = ⟨S512, .f32⟩) (p2 : main_v50.space ≠ .host) (p3 : main_v50.isScoped = false) (v : (⟨S512, .f32⟩ : BufTy).Contents (Elt Ideal)) :
    (TRef.of (sig := sig) (T := ⟨S512, .f32⟩) main_v50 p1 p2 p3).toBuf v = v := rfl
theorem ofBuf_main_v50 (p1 : main_v50.ty = ⟨S512, .f32⟩) (p2 : main_v50.space ≠ .host) (p3 : main_v50.isScoped = false) (v : (⟨S512, .f32⟩ : BufTy).Contents (Elt Ideal)) :
    (TRef.of (sig := sig) (T := ⟨S512, .f32⟩) main_v50 p1 p2 p3).ofBuf v = v := rfl

/-! ## The reference recomputes the clipped degrees for its second layer: the same terms -/

theorem degOut_again (x1 : (⟨Cert.ReferenceIdeal.S1600000, .i32⟩ : BufTy).Contents (Elt Ideal)) : val_main_v36 (F := Ideal) x1 = val_main_v4 (F := Ideal) x1 := by
  unfold Cert.ReferenceIdeal.Read.val_main_v36 Cert.ReferenceIdeal.Read.val_main_v35 Cert.ReferenceIdeal.Read.val_main_v32 Cert.ReferenceIdeal.Read.val_main_cst_6 Cert.ReferenceIdeal.Read.val_main_v34 Cert.ReferenceIdeal.Read.val_main_v33 Cert.ReferenceIdeal.Read.val_main_cst_7 Cert.ReferenceIdeal.Read.val_main_call3_v1 Cert.ReferenceIdeal.Read.val_main_call3_v0 Cert.ReferenceIdeal.Read.val_main_cst_8 Cert.ReferenceIdeal.Read.val_main_v4 Cert.ReferenceIdeal.Read.val_main_v3 Cert.ReferenceIdeal.Read.val_main_v0 Cert.ReferenceIdeal.Read.val_main_cst Cert.ReferenceIdeal.Read.val_main_v2 Cert.ReferenceIdeal.Read.val_main_v1 Cert.ReferenceIdeal.Read.val_main_cst_0 Cert.ReferenceIdeal.Read.val_main_call0_v1 Cert.ReferenceIdeal.Read.val_main_call0_v0 Cert.ReferenceIdeal.Read.val_main_cst_1
  rfl

theorem degIn_again (x2 : (⟨Cert.ReferenceIdeal.S1600000, .i32⟩ : BufTy).Contents (Elt Ideal)) : val_main_v40 (F := Ideal) x2 = val_main_v8 (F := Ideal) x2 := by
  unfold Cert.ReferenceIdeal.Read.val_main_v40 Cert.ReferenceIdeal.Read.val_main_v39 Cert.ReferenceIdeal.Read.val_main_v32 Cert.ReferenceIdeal.Read.val_main_cst_6 Cert.ReferenceIdeal.Read.val_main_v38 Cert.ReferenceIdeal.Read.val_main_v37 Cert.ReferenceIdeal.Read.val_main_cst_9 Cert.ReferenceIdeal.Read.val_main_call4_v1 Cert.ReferenceIdeal.Read.val_main_call4_v0 Cert.ReferenceIdeal.Read.val_main_cst_10 Cert.ReferenceIdeal.Read.val_main_v8 Cert.ReferenceIdeal.Read.val_main_v7 Cert.ReferenceIdeal.Read.val_main_v0 Cert.ReferenceIdeal.Read.val_main_cst Cert.ReferenceIdeal.Read.val_main_v6 Cert.ReferenceIdeal.Read.val_main_v5 Cert.ReferenceIdeal.Read.val_main_cst_2 Cert.ReferenceIdeal.Read.val_main_call1_v1 Cert.ReferenceIdeal.Read.val_main_call1_v0 Cert.ReferenceIdeal.Read.val_main_cst_3
  rfl

/-! ## The host stretches, from an arbitrary valuation `W` of the buffers

Each lemma reads one buffer after a stretch of host operations as the reference's stage function of what `W` holds at
the buffers the stretch reads. A scatter-add is named by the reference's stage before it goes under a pointwise
operation (the clip's maximum, the mean's quotient). -/

section Stretches

variable (W : Valuation τ sig (Elt Ideal))

/-! ### The out-degree -/

/-- Ones scatter-added along the source list. -/
theorem countSrc_of (x1 : (⟨S1600000, .i32⟩ : BufTy).Contents (Elt Ideal)) (h1 : W (Proc.devRef .tc main_arg1) = x1) :
    StableHlo.after hostOps0 W (Proc.devRef .tc main_v3) = Cert.ReferenceIdeal.Read.val_main_v3 (F := Ideal) x1 := by
  after_results_simp
  rw [h1]
  unfold Cert.ReferenceIdeal.Read.val_main_v3 Cert.ReferenceIdeal.Read.val_main_v0 Cert.ReferenceIdeal.Read.val_main_cst Cert.ReferenceIdeal.Read.val_main_v2 Cert.ReferenceIdeal.Read.val_main_v1 Cert.ReferenceIdeal.Read.val_main_cst_0
  rfl

/-- The constant one the first clip takes. -/
theorem one1_of : StableHlo.after hostOps0 W (Proc.devRef .tc main_cst_1) = (constant (F := Ideal) S_ .f32 0x3F800000#32) := by
  after_results_simp

/-- The vector of ones the degree counts add up. -/
theorem ones_of : StableHlo.after hostOps0 W (Proc.devRef .tc main_v0) = Cert.ReferenceIdeal.Read.val_main_v0 (F := Ideal) := by
  after_results_simp
  unfold Cert.ReferenceIdeal.Read.val_main_v0 Cert.ReferenceIdeal.Read.val_main_cst
  rfl

/-- The clip: at least one. -/
theorem clipSrc_of (d : (⟨S100000, .f32⟩ : BufTy).Contents (Elt Ideal)) (h3 : W (Proc.devRef .tc main_v3) = d) (hc : W (Proc.devRef .tc main_cst_1) = (constant (F := Ideal) S_ .f32 0x3F800000#32)) :
    StableHlo.after hostOps0_1 W (Proc.devRef .tc main_v4) = maximumf (F := Ideal) (φ := .f32) (Cert.ReferenceIdeal.Read.val_main_call0_v1 (F := Ideal)) d := by
  after_results_simp
  rw [h3, hc]
  simp only [toBuf_main_v4, ofBuf_main_v4, toBuf_main_call0_v1, ofBuf_main_call0_v1, toBuf_main_call0_v0, ofBuf_main_call0_v0, toBuf_main_cst_1, ofBuf_main_cst_1, toBuf_main_v3, ofBuf_main_v3]
  unfold Cert.ReferenceIdeal.Read.val_main_call0_v1 Cert.ReferenceIdeal.Read.val_main_call0_v0 Cert.ReferenceIdeal.Read.val_main_cst_1
  rfl

/-! ### The in-degree -/

/-- Ones scatter-added along the destination list. -/
theorem countDst_of (x2 : (⟨S1600000, .i32⟩ : BufTy).Contents (Elt Ideal)) (h2 : W (Proc.devRef .tc main_arg2) = x2) (h0 : W (Proc.devRef .tc main_v0) = Cert.ReferenceIdeal.Read.val_main_v0 (F := Ideal)) :
    StableHlo.after hostOps0_2 W (Proc.devRef .tc main_v7) = Cert.ReferenceIdeal.Read.val_main_v7 (F := Ideal) x2 := by
  after_results_simp
  rw [h2, h0]
  unfold Cert.ReferenceIdeal.Read.val_main_v7 Cert.ReferenceIdeal.Read.val_main_v6 Cert.ReferenceIdeal.Read.val_main_v5 Cert.ReferenceIdeal.Read.val_main_cst_2
  rfl

/-- The constant one the second clip takes. -/
theorem one3_of : StableHlo.after hostOps0_2 W (Proc.devRef .tc main_cst_3) = (constant (F := Ideal) S_ .f32 0x3F800000#32) := by
  after_results_simp

theorem clipDst_of (d : (⟨S100000, .f32⟩ : BufTy).Contents (Elt Ideal)) (h7 : W (Proc.devRef .tc main_v7) = d) (hc : W (Proc.devRef .tc main_cst_3) = (constant (F := Ideal) S_ .f32 0x3F800000#32)) :
    StableHlo.after hostOps0_3 W (Proc.devRef .tc main_v8) = maximumf (F := Ideal) (φ := .f32) (Cert.ReferenceIdeal.Read.val_main_call1_v1 (F := Ideal)) d := by
  after_results_simp
  rw [h7, hc]
  simp only [toBuf_main_v8, ofBuf_main_v8, toBuf_main_call1_v1, ofBuf_main_call1_v1, toBuf_main_call1_v0, ofBuf_main_call1_v0, toBuf_main_cst_3, ofBuf_main_cst_3, toBuf_main_v7, ofBuf_main_v7]
  unfold Cert.ReferenceIdeal.Read.val_main_call1_v1 Cert.ReferenceIdeal.Read.val_main_call1_v0 Cert.ReferenceIdeal.Read.val_main_cst_3
  rfl

/-! ### Buffers a stretch leaves alone -/

theorem keep_v0_1 : StableHlo.after hostOps0_1 W (Proc.devRef .tc main_v0) = W (Proc.devRef .tc main_v0) := by after_results_simp
theorem keep_v4_23 : StableHlo.after hostOps0_3 (StableHlo.after hostOps0_2 W) (Proc.devRef .tc main_v4) = W (Proc.devRef .tc main_v4) := by after_results_simp
theorem keep_v4_4 : StableHlo.after hostOps0_4 W (Proc.devRef .tc main_v4) = W (Proc.devRef .tc main_v4) := by after_results_simp
theorem keep_v8_4 : StableHlo.after hostOps0_4 W (Proc.devRef .tc main_v8) = W (Proc.devRef .tc main_v8) := by after_results_simp

/-! ### Region 0's entry -/

/-- The first aggregation: the features scaled by the out-degrees' inverse roots, gathered along the source list and
    scatter-added along the destination list. -/
theorem agg1_of (x0 : (⟨S100000x64, .f32⟩ : BufTy).Contents (Elt Ideal)) (x1 x2 : (⟨S1600000, .i32⟩ : BufTy).Contents (Elt Ideal))
    (h0 : W (Proc.devRef .tc main_arg0) = x0) (h1 : W (Proc.devRef .tc main_arg1) = x1) (h2 : W (Proc.devRef .tc main_arg2) = x2)
    (h4 : W (Proc.devRef .tc main_v4) = val_main_v4 (F := Ideal) x1) :
    StableHlo.after hostOps0_4 W (Proc.devRef .tc main_v22) = val_main_v22 (F := Ideal) x0 x1 x2 := by
  after_results_simp
  rw [h4, h0, h1, h2]
  unfold Cert.ReferenceIdeal.Read.val_main_v22 Cert.ReferenceIdeal.Read.val_main_v19 Cert.ReferenceIdeal.Read.val_main_v18 Cert.ReferenceIdeal.Read.val_main_v17 Cert.ReferenceIdeal.Read.val_main_v16 Cert.ReferenceIdeal.Read.val_main_v15 Cert.ReferenceIdeal.Read.val_main_c_4 Cert.ReferenceIdeal.Read.val_main_v14 Cert.ReferenceIdeal.Read.val_main_v13 Cert.ReferenceIdeal.Read.val_main_c Cert.ReferenceIdeal.Read.val_main_v12 Cert.ReferenceIdeal.Read.val_main_v11 Cert.ReferenceIdeal.Read.val_main_v10 Cert.ReferenceIdeal.Read.val_main_v9 Cert.ReferenceIdeal.Read.val_main_v21 Cert.ReferenceIdeal.Read.val_main_v20 Cert.ReferenceIdeal.Read.val_main_cst_5
  rfl

/-- The in-degrees as a column. -/
theorem degCol1_of (d : (⟨S100000, .f32⟩ : BufTy).Contents (Elt Ideal)) (h8 : W (Proc.devRef .tc main_v8) = d) :
    StableHlo.after hostOps0_4 W (Proc.devRef .tc main_v23) = Cert.Spec.col d := by
  after_results_simp
  rw [h8]
  exact shapeCast_col d _

/-- The first bias as a row. -/
theorem bias1_of (b : (⟨S128, .f32⟩ : BufTy).Contents (Elt Ideal)) (h5 : W (Proc.devRef .tc main_arg5) = b) :
    StableHlo.after hostOps0_4 W (Proc.devRef .tc main_v24) = Cert.Spec.row b := by
  after_results_simp
  rw [h5]
  exact shapeCast_row b _

/-! ### Region 1's entry -/

/-- The second aggregation, of the first layer's output. -/
theorem agg2_of (x0 : (⟨S100000x64, .f32⟩ : BufTy).Contents (Elt Ideal)) (x1 x2 : (⟨S1600000, .i32⟩ : BufTy).Contents (Elt Ideal)) (x4 : (⟨S64x128, .f32⟩ : BufTy).Contents (Elt Ideal)) (x5 : (⟨S128, .f32⟩ : BufTy).Contents (Elt Ideal))
    (h25 : W (Proc.devRef .tc main_v25) = val_main_v31 (F := Ideal) x0 x1 x2 x4 x5) (h1 : W (Proc.devRef .tc main_arg1) = x1) (h2 : W (Proc.devRef .tc main_arg2) = x2)
    (h4 : W (Proc.devRef .tc main_v4) = val_main_v4 (F := Ideal) x1) :
    StableHlo.after hostOps1 W (Proc.devRef .tc main_v39) = val_main_v54 (F := Ideal) x0 x1 x2 x4 x5 := by
  after_results_simp
  rw [h25, h4, h1, h2]
  unfold Cert.ReferenceIdeal.Read.val_main_v54 Cert.ReferenceIdeal.Read.val_main_v51 Cert.ReferenceIdeal.Read.val_main_v50 Cert.ReferenceIdeal.Read.val_main_v49 Cert.ReferenceIdeal.Read.val_main_v48 Cert.ReferenceIdeal.Read.val_main_v47 Cert.ReferenceIdeal.Read.val_main_c_12 Cert.ReferenceIdeal.Read.val_main_v46 Cert.ReferenceIdeal.Read.val_main_v45 Cert.ReferenceIdeal.Read.val_main_c_11 Cert.ReferenceIdeal.Read.val_main_v44 Cert.ReferenceIdeal.Read.val_main_v43 Cert.ReferenceIdeal.Read.val_main_v42 Cert.ReferenceIdeal.Read.val_main_v41 Cert.ReferenceIdeal.Read.val_main_v53 Cert.ReferenceIdeal.Read.val_main_v52 Cert.ReferenceIdeal.Read.val_main_cst_13
  rw [degOut_again]
  rfl

theorem degCol2_of (d : (⟨S100000, .f32⟩ : BufTy).Contents (Elt Ideal)) (h8 : W (Proc.devRef .tc main_v8) = d) :
    StableHlo.after hostOps1 W (Proc.devRef .tc main_v40) = Cert.Spec.col d := by
  after_results_simp
  rw [h8]
  exact shapeCast_col d _

theorem bias2_of (b : (⟨S128, .f32⟩ : BufTy).Contents (Elt Ideal)) (h7 : W (Proc.devRef .tc main_arg7) = b) :
    StableHlo.after hostOps1 W (Proc.devRef .tc main_v41) = Cert.Spec.row b := by
  after_results_simp
  rw [h7]
  exact shapeCast_row b _

/-! ### Region 2's entry: the mean over each graph's nodes -/

/-- The second layer's output scatter-added along the graph ids. -/
theorem sums_of (x0 : (⟨S100000x64, .f32⟩ : BufTy).Contents (Elt Ideal)) (x1 x2 : (⟨S1600000, .i32⟩ : BufTy).Contents (Elt Ideal)) (x3 : (⟨S100000, .i32⟩ : BufTy).Contents (Elt Ideal)) (x4 : (⟨S64x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
    (h42 : W (Proc.devRef .tc main_v42) = val_main_v63 (F := Ideal) x0 x1 x2 x4 x5 x6 x7) (h3 : W (Proc.devRef .tc main_arg3) = x3) :
    StableHlo.after hostOps2 W (Proc.devRef .tc main_v45) = Cert.ReferenceIdeal.Read.val_main_v66 (F := Ideal) x0 x1 x2 x3 x4 x5 x6 x7 := by
  after_results_simp
  rw [h42, h3]
  unfold Cert.ReferenceIdeal.Read.val_main_v66 Cert.ReferenceIdeal.Read.val_main_v65 Cert.ReferenceIdeal.Read.val_main_v64 Cert.ReferenceIdeal.Read.val_main_cst_14
  rfl

/-- Ones scatter-added along the graph ids: each graph's node count. -/
theorem counts_of (x3 : (⟨S100000, .i32⟩ : BufTy).Contents (Elt Ideal)) (h3 : W (Proc.devRef .tc main_arg3) = x3) :
    StableHlo.after hostOps2 W (Proc.devRef .tc main_v49) = Cert.ReferenceIdeal.Read.val_main_v70 (F := Ideal) x3 := by
  after_results_simp
  rw [h3]
  unfold Cert.ReferenceIdeal.Read.val_main_v70 Cert.ReferenceIdeal.Read.val_main_v67 Cert.ReferenceIdeal.Read.val_main_cst_15 Cert.ReferenceIdeal.Read.val_main_v69 Cert.ReferenceIdeal.Read.val_main_v68 Cert.ReferenceIdeal.Read.val_main_cst_16
  rfl

theorem one12_of : StableHlo.after hostOps2 W (Proc.devRef .tc main_cst_12) = (constant (F := Ideal) S_ .f32 0x3F800000#32) := by
  after_results_simp

theorem clipCnt_of (d : (⟨S512, .f32⟩ : BufTy).Contents (Elt Ideal)) (h49 : W (Proc.devRef .tc main_v49) = d) (hc : W (Proc.devRef .tc main_cst_12) = (constant (F := Ideal) S_ .f32 0x3F800000#32)) :
    StableHlo.after hostOps2_1 W (Proc.devRef .tc main_v50) = maximumf (F := Ideal) (φ := .f32) (Cert.ReferenceIdeal.Read.val_main_call6_v1 (F := Ideal)) d := by
  after_results_simp
  rw [h49, hc]
  simp only [toBuf_main_v50, ofBuf_main_v50, toBuf_main_call2_v1, ofBuf_main_call2_v1, toBuf_main_call2_v0, ofBuf_main_call2_v0, toBuf_main_cst_12, ofBuf_main_cst_12, toBuf_main_v49, ofBuf_main_v49]
  unfold Cert.ReferenceIdeal.Read.val_main_call6_v1 Cert.ReferenceIdeal.Read.val_main_call6_v0 Cert.ReferenceIdeal.Read.val_main_cst_17
  rfl

theorem keep_v45_1 : StableHlo.after hostOps2_1 W (Proc.devRef .tc main_v45) = W (Proc.devRef .tc main_v45) := by after_results_simp

/-- The mean: the sums divided by the clipped counts. -/
theorem mean_of (s : (⟨S512x128, .f32⟩ : BufTy).Contents (Elt Ideal)) (n : (⟨S512, .f32⟩ : BufTy).Contents (Elt Ideal)) (h45 : W (Proc.devRef .tc main_v45) = s) (h50 : W (Proc.devRef .tc main_v50) = n) :
    StableHlo.after hostOps2_2 W (Proc.devRef .tc main_v53) = Host.divf (F := Ideal) (φ := .f32) s (broadcastInDim (α := Ideal .f32) S512x128 ![0, 1] bcast_S512x1_S512x128_0_1 (broadcastInDim (α := Ideal .f32) S512x1 ![0] bcast_S512_S512x1_0 n)) := by
  after_results_simp
  rw [h45, h50]

theorem biasC1_of (b : (⟨S128, .f32⟩ : BufTy).Contents (Elt Ideal)) (h : W (Proc.devRef .tc main_arg9) = b) :
    StableHlo.after hostOps2_2 W (Proc.devRef .tc main_v54) = Cert.Spec.row b := by
  after_results_simp
  rw [h]
  exact shapeCast_row b _

theorem biasC2_of (b : (⟨S128, .f32⟩ : BufTy).Contents (Elt Ideal)) (h : W (Proc.devRef .tc main_arg11) = b) :
    StableHlo.after hostOps2_2 W (Proc.devRef .tc main_v55) = Cert.Spec.row b := by
  after_results_simp
  rw [h]
  exact shapeCast_row b _

theorem biasC3_of (b : (⟨S1, .f32⟩ : BufTy).Contents (Elt Ideal)) (h : W (Proc.devRef .tc main_arg13) = b) :
    StableHlo.after hostOps2_2 W (Proc.devRef .tc main_v56) = Cert.Spec.row b := by
  after_results_simp
  rw [h]
  exact shapeCast_row b _

end Stretches

/-! ## The chain through @main, from the launch memory -/

section Chain

variable (c : Dev nD)

/-! ### The clipped degrees -/

theorem countSrc_W1 : W1 m ρ c (Proc.devRef .tc main_v3) = Cert.ReferenceIdeal.Read.val_main_v3 (F := Ideal) (m ((c : Thread nD τ).loc main_arg1)) :=
  countSrc_of (W0 m ρ c) _ (W0_read m ρ c main_arg1)

theorem ones_W2 : W2 m ρ c (Proc.devRef .tc main_v0) = Cert.ReferenceIdeal.Read.val_main_v0 (F := Ideal) :=
  (keep_v0_1 (W1 m ρ c)).trans (ones_of (W0 m ρ c))

/-- The out-degree, clipped, after the first clip. -/
theorem degOut_W2 : W2 m ρ c (Proc.devRef .tc main_v4) = val_main_v4 (F := Ideal) (m ((c : Thread nD τ).loc main_arg1)) :=
  clipSrc_of (W1 m ρ c) _ (countSrc_W1 m ρ c) (one1_of (W0 m ρ c))

theorem arg2_W2 : W2 m ρ c (Proc.devRef .tc main_arg2) = (m ((c : Thread nD τ).loc main_arg2)) := by walk_back

theorem countDst_W3 : W3 m ρ c (Proc.devRef .tc main_v7) = Cert.ReferenceIdeal.Read.val_main_v7 (F := Ideal) (m ((c : Thread nD τ).loc main_arg2)) :=
  countDst_of (W2 m ρ c) _ (arg2_W2 m ρ c) (ones_W2 m ρ c)

/-- The in-degree, clipped. -/
theorem degIn_W4 : W4 m ρ c (Proc.devRef .tc main_v8) = val_main_v8 (F := Ideal) (m ((c : Thread nD τ).loc main_arg2)) :=
  clipDst_of (W3 m ρ c) _ (countDst_W3 m ρ c) (one3_of (W2 m ρ c))

theorem degOut_W4 : W4 m ρ c (Proc.devRef .tc main_v4) = val_main_v4 (F := Ideal) (m ((c : Thread nD τ).loc main_arg1)) :=
  (keep_v4_23 (W2 m ρ c)).trans (degOut_W2 m ρ c)

theorem arg0_W4 : W4 m ρ c (Proc.devRef .tc main_arg0) = (m ((c : Thread nD τ).loc main_arg0)) := by walk_back
theorem arg1_W4 : W4 m ρ c (Proc.devRef .tc main_arg1) = (m ((c : Thread nD τ).loc main_arg1)) := by walk_back
theorem arg2_W4 : W4 m ρ c (Proc.devRef .tc main_arg2) = (m ((c : Thread nD τ).loc main_arg2)) := by walk_back
theorem arg5_W4 : W4 m ρ c (Proc.devRef .tc main_arg5) = (m ((c : Thread nD τ).loc main_arg5)) := by walk_back

/-! ### The first layer -/

theorem agg1_W5 : W5 m ρ c (Proc.devRef .tc main_v22) = val_main_v22 (F := Ideal) (m ((c : Thread nD τ).loc main_arg0)) (m ((c : Thread nD τ).loc main_arg1)) (m ((c : Thread nD τ).loc main_arg2)) :=
  agg1_of (W4 m ρ c) _ _ _ (arg0_W4 m ρ c) (arg1_W4 m ρ c) (arg2_W4 m ρ c) (degOut_W4 m ρ c)

theorem degCol_W5 : W5 m ρ c (Proc.devRef .tc main_v23) = Cert.Spec.col (val_main_v8 (F := Ideal) (m ((c : Thread nD τ).loc main_arg2))) :=
  degCol1_of (W4 m ρ c) _ (degIn_W4 m ρ c)

theorem bias1_W5 : W5 m ρ c (Proc.devRef .tc main_v24) = Cert.Spec.row (m ((c : Thread nD τ).loc main_arg5)) :=
  bias1_of (W4 m ρ c) _ (arg5_W4 m ρ c)

theorem arg4_W5 : W5 m ρ c (Proc.devRef .tc main_arg4) = (m ((c : Thread nD τ).loc main_arg4)) := by walk_back

/-- The first layer's output array is the reference's first relu. -/
theorem layer1_W6 : W6 m ρ c (Proc.devRef .tc main_v25) = val_main_v31 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  have h := Cert.KernelIdeal.Layer0.array_eq (V5 m ρ) c
  rw [show V5 m ρ c main_v22 = _ from agg1_W5 m ρ c, show V5 m ρ c main_v23 = _ from degCol_W5 m ρ c,
    show V5 m ρ c main_arg4 = _ from arg4_W5 m ρ c, show V5 m ρ c main_v24 = _ from bias1_W5 m ρ c] at h
  exact (W6_arr m ρ c 4).trans (h.trans (Cert.ReferenceIdeal.Layers.layer1_eq _ _ _ _ _).symm)

theorem degOut_W6 : W6 m ρ c (Proc.devRef .tc main_v4) = val_main_v4 (F := Ideal) (m ((c : Thread nD τ).loc main_arg1)) :=
  (W6_of_ne m ρ c main_v4 (by decide)).trans ((keep_v4_4 (W4 m ρ c)).trans (degOut_W4 m ρ c))

theorem degIn_W6 : W6 m ρ c (Proc.devRef .tc main_v8) = val_main_v8 (F := Ideal) (m ((c : Thread nD τ).loc main_arg2)) :=
  (W6_of_ne m ρ c main_v8 (by decide)).trans ((keep_v8_4 (W4 m ρ c)).trans (degIn_W4 m ρ c))

theorem arg1_W6 : W6 m ρ c (Proc.devRef .tc main_arg1) = (m ((c : Thread nD τ).loc main_arg1)) := by walk_back
theorem arg2_W6 : W6 m ρ c (Proc.devRef .tc main_arg2) = (m ((c : Thread nD τ).loc main_arg2)) := by walk_back
theorem arg7_W6 : W6 m ρ c (Proc.devRef .tc main_arg7) = (m ((c : Thread nD τ).loc main_arg7)) := by walk_back

/-! ### The second layer -/

theorem agg2_W7 : W7 m ρ c (Proc.devRef .tc main_v39) = val_main_v54 (F := Ideal) (m ((c : Thread nD τ).loc main_arg0)) (m ((c : Thread nD τ).loc main_arg1)) (m ((c : Thread nD τ).loc main_arg2)) (m ((c : Thread nD τ).loc main_arg4)) (m ((c : Thread nD τ).loc main_arg5)) :=
  agg2_of (W6 m ρ c) _ _ _ _ _ (layer1_W6 m ρ c) (arg1_W6 m ρ c) (arg2_W6 m ρ c) (degOut_W6 m ρ c)

theorem degCol_W7 : W7 m ρ c (Proc.devRef .tc main_v40) = Cert.Spec.col (val_main_v40 (F := Ideal) (m ((c : Thread nD τ).loc main_arg2))) :=
  (degCol2_of (W6 m ρ c) _ (degIn_W6 m ρ c)).trans (congrArg Cert.Spec.col (degIn_again _).symm)

theorem bias2_W7 : W7 m ρ c (Proc.devRef .tc main_v41) = Cert.Spec.row (m ((c : Thread nD τ).loc main_arg7)) :=
  bias2_of (W6 m ρ c) _ (arg7_W6 m ρ c)

theorem arg6_W7 : W7 m ρ c (Proc.devRef .tc main_arg6) = (m ((c : Thread nD τ).loc main_arg6)) := by walk_back

/-- The second layer's output array is the reference's second relu. -/
theorem layer2_W8 : W8 m ρ c (Proc.devRef .tc main_v42) = val_main_v63 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  have h := Cert.KernelIdeal.Layer1.array_eq (V7 m ρ) c
  rw [show V7 m ρ c main_v39 = _ from agg2_W7 m ρ c, show V7 m ρ c main_v40 = _ from degCol_W7 m ρ c,
    show V7 m ρ c main_arg6 = _ from arg6_W7 m ρ c, show V7 m ρ c main_v41 = _ from bias2_W7 m ρ c] at h
  exact (W8_arr m ρ c 4).trans (h.trans (Cert.ReferenceIdeal.Layers.layer2_eq _ _ _ _ _ _ _).symm)

theorem arg3_W8 : W8 m ρ c (Proc.devRef .tc main_arg3) = (m ((c : Thread nD τ).loc main_arg3)) := by walk_back

/-! ### The mean over graphs and the classifier -/

theorem sums_W9 : W9 m ρ c (Proc.devRef .tc main_v45) = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  sums_of (W8 m ρ c) _ _ _ _ _ _ _ _ (layer2_W8 m ρ c) (arg3_W8 m ρ c)

theorem counts_W10 : W10 m ρ c (Proc.devRef .tc main_v50) = Cert.ReferenceIdeal.Read.val_main_v71 (F := Ideal) (m ((c : Thread nD τ).loc main_arg3)) :=
  clipCnt_of (W9 m ρ c) _ (counts_of (W8 m ρ c) _ (arg3_W8 m ρ c)) (one12_of (W8 m ρ c))

/-- The pooled features are the reference's. -/
theorem mean_W11 : W11 m ρ c (Proc.devRef .tc main_v53) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (mean_of (W10 m ρ c) _ _ ((keep_v45_1 (W9 m ρ c)).trans (sums_W9 m ρ c)) (counts_W10 m ρ c)).trans ?_
  unfold Cert.ReferenceIdeal.Read.val_main_v74 Cert.ReferenceIdeal.Read.val_main_v73 Cert.ReferenceIdeal.Read.val_main_v72
  rfl

theorem arg9_W10 : W10 m ρ c (Proc.devRef .tc main_arg9) = (m ((c : Thread nD τ).loc main_arg9)) := by walk_back
theorem arg11_W10 : W10 m ρ c (Proc.devRef .tc main_arg11) = (m ((c : Thread nD τ).loc main_arg11)) := by walk_back
theorem arg13_W10 : W10 m ρ c (Proc.devRef .tc main_arg13) = (m ((c : Thread nD τ).loc main_arg13)) := by walk_back
theorem arg8_W11 : W11 m ρ c (Proc.devRef .tc main_arg8) = (m ((c : Thread nD τ).loc main_arg8)) := by walk_back
theorem arg10_W11 : W11 m ρ c (Proc.devRef .tc main_arg10) = (m ((c : Thread nD τ).loc main_arg10)) := by walk_back
theorem arg12_W11 : W11 m ρ c (Proc.devRef .tc main_arg12) = (m ((c : Thread nD τ).loc main_arg12)) := by walk_back

theorem biasC1_W11 : W11 m ρ c (Proc.devRef .tc main_v54) = Cert.Spec.row (m ((c : Thread nD τ).loc main_arg9)) := biasC1_of (W10 m ρ c) _ (arg9_W10 m ρ c)
theorem biasC2_W11 : W11 m ρ c (Proc.devRef .tc main_v55) = Cert.Spec.row (m ((c : Thread nD τ).loc main_arg11)) := biasC2_of (W10 m ρ c) _ (arg11_W10 m ρ c)
theorem biasC3_W11 : W11 m ρ c (Proc.devRef .tc main_v56) = Cert.Spec.row (m ((c : Thread nD τ).loc main_arg13)) := biasC3_of (W10 m ρ c) _ (arg13_W10 m ρ c)

/-- THE RESULT BUFFER after the last region is the reference's result, as a function of the argument arrays. -/
theorem result_W12 : W12 m ρ c (Proc.devRef .tc main_v57) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have h := Cert.KernelIdeal.Mlp.array_eq (V11 m ρ) c
  rw [show V11 m ρ c main_v53 = _ from mean_W11 m ρ c, show V11 m ρ c main_arg8 = _ from arg8_W11 m ρ c,
    show V11 m ρ c main_v54 = _ from biasC1_W11 m ρ c, show V11 m ρ c main_arg10 = _ from arg10_W11 m ρ c,
    show V11 m ρ c main_v55 = _ from biasC2_W11 m ρ c, show V11 m ρ c main_arg12 = _ from arg12_W11 m ρ c,
    show V11 m ρ c main_v56 = _ from biasC3_W11 m ρ c] at h
  exact (W12_arr m ρ c 7).trans (h.trans (Cert.ReferenceIdeal.Classifier.mlp_eq _ _ _ _ _ _ _ _ _ _ _ _ _ _).symm)

end Chain

/-! ## The run -/

/-- Every weakly fair execution of the kernel program terminates with the result buffer at the reference's result
    function of the argument arrays, the arguments unchanged. -/
theorem run : θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v57) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run (Cert.KernelIdeal.defs (F := Ideal)) _ _).mono (fun r h c => ⟨(h c).1.trans (result_W12 m ρ c), (h c).2⟩)
    (Cert.KernelIdeal.Named.run_named (F := Ideal) m ρ)

end Cert.Bridge

end
-- ==== Proof.lean ====
/-
  The certificate: a three-region graph-convolution network against its jnp reference.

  Both programs compute, from node features, an edge list and graph ids: the clipped out- and in-degrees (ones
  scatter-added along the two ends of the edges, at least one); twice a graph convolution, `relu ((A' h) · W + b)` with
  `A' h` the features scaled by the out-degrees' inverse roots, gathered along the sources, scatter-added along the
  destinations and scaled by the in-degrees' inverse roots; the mean of the node features over each graph; and a
  three-layer classifier. The kernel program runs the dense part of each layer and the classifier in pallas regions
  (the matrix product block by block of 4000 rows, operands cast to a narrower float format, which at the extended
  reals is the identity) and everything else on the host, exactly as the reference does; the reference recomputes the
  degrees for the second layer, the kernel program reuses them.

  Spec.lean states the layer and the classifier index by index; Payloads / PayloadMlp read each kernel body's arithmetic
  as those functions of the loaded blocks; Layer0 / Layer1 / Mlp read each region's output array as the same function
  of the region's entry arrays (a block of rows of a layer is the layer of the blocks of rows); RefLayers / RefMlp read
  the reference's stages as the same functions; Bridge reads the host operations between the regions and composes:
  the kernel program's result buffer is the reference's result function of the argument arrays. The two programs apply
  the same operations in the same order, so no algebraic law of the extended reals is needed and the value claim never
  opens the precondition (finite inputs).
-/
import proofs.«116400_j29703993819342_1_alg».proof.Defs
import proofs.«116400_j29703993819342_1_alg».proof.Proof.Gen.Kernel
import proofs.«116400_j29703993819342_1_alg».proof.Proof.Gen.Kernel.Skeleton
import proofs.«116400_j29703993819342_1_alg».proof.Proof.Gen.Kernel.Launch
import proofs.«116400_j29703993819342_1_alg».proof.Proof.Gen.Kernel.Points
import proofs.«116400_j29703993819342_1_alg».proof.Proof.Gen.Kernel.Frame
import proofs.«116400_j29703993819342_1_alg».proof.Proof.Gen.KernelIdeal
import proofs.«116400_j29703993819342_1_alg».proof.Proof.Gen.KernelIdeal.Skeleton
import proofs.«116400_j29703993819342_1_alg».proof.Proof.Gen.KernelIdeal.Launch
import proofs.«116400_j29703993819342_1_alg».proof.Proof.Gen.KernelIdeal.Points
import proofs.«116400_j29703993819342_1_alg».proof.Proof.Gen.KernelIdeal.Frame
import proofs.«116400_j29703993819342_1_alg».proof.Proof.Gen.ReferenceIdeal
import proofs.«116400_j29703993819342_1_alg».proof.Proof.Gen.ReferenceIdeal.Run
import proofs.«116400_j29703993819342_1_alg».proof.Proof.Gen.ReferenceIdeal.Read
import proofs.«116400_j29703993819342_1_alg».proof.Proof.Gen.Pre_finite_inputs
import proofs.«116400_j29703993819342_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the reference's result function of the (agreeing) argument arrays. -/
theorem algebraic : Cert.algebraic_KernelIdeal_ReferenceIdeal := by
  intro m ρ m' ρ' _ hagree
  refine ⟨_, Cert.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [Cert.ReferenceIdeal.Read.val_main_v88_eq, e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
